-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40x64 .f32) (main_arg6 : FVec F S40 .f32) (main_arg7 : FVec F S40x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S40x64 .f32 := Host.absf main_arg5
  let main_cst_6 : FVec F S_ .f32 := constant S_ .f32 0x7F800000#32
  let main_v20 : FVec F S40x64 .f32 := broadcastInDim S40x64 ![] bcast_S_S40x64 main_cst_6
  let main_v21 : IVec S40x64 1 := cmpf .olt main_v19 main_v20
  let main_c_7 : IVec S_ 1 := constantI S_ 1 1#1
  let main_v22 : IVec S_ 1 := (fun x v => Host.reduce IntOp.andi x v reducesTo_S40x64_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  let main_v29 : FVec F S40x64 .f32 := Host.absf main_arg7
  let main_cst_10 : FVec F S_ .f32 := constant S_ .f32 0x7F800000#32
  let main_v30 : FVec F S40x64 .f32 := broadcastInDim S40x64 ![] bcast_S_S40x64 main_cst_10
  let main_v31 : IVec S40x64 1 := cmpf .olt main_v29 main_v30
  let main_c_11 : IVec S_ 1 := constantI S_ 1 1#1
  let main_v32 : IVec S_ 1 := (fun x v => Host.reduce IntOp.andi x v reducesTo_S40x64_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S64x128 .f32) (main_arg3 : FVec F S64 .f32) (main_arg4 : FVec F S64x128 .f32) (main_arg5 : FVec F S40x64 .f32) (main_arg6 : FVec F S40 .f32) (main_arg7 : FVec F S40x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S128x64 : Shape := ⟨2, ![128, 64]⟩
abbrev S100000x64 : Shape := ⟨2, ![100000, 64]⟩
abbrev S5000x128 : Shape := ⟨2, ![5000, 128]⟩
abbrev S5000x64 : Shape := ⟨2, ![5000, 64]⟩
abbrev S1x64 : Shape := ⟨2, ![1, 64]⟩
abbrev S1600000x64 : Shape := ⟨2, ![1600000, 64]⟩
abbrev S64x40 : Shape := ⟨2, ![64, 40]⟩
abbrev S100000x40 : Shape := ⟨2, ![100000, 40]⟩
abbrev S5000x40 : Shape := ⟨2, ![5000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 62
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S40x64, .f32⟩
  | .hbm, ⟨6, _⟩ => ⟨S40, .f32⟩
  | .hbm, ⟨7, _⟩ => ⟨S40x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S128x64, .f32⟩
  | .hbm, ⟨42, _⟩ => ⟨S128x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S64x40, .f32⟩
  | .hbm, ⟨60, _⟩ => ⟨S64x40, .f32⟩
  | .hbm, ⟨61, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S64, .f32⟩
  | .local _ .vmem, ⟨6, _⟩ => ⟨S128x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x40, .f32⟩
  | .local _ .vmem, ⟨14, _⟩ => ⟨S40, .f32⟩
  | .local _ .vmem, ⟨15, _⟩ => ⟨S64x40, .f32⟩
  | .local _ .vmem, ⟨16, _⟩ => ⟨S5000x40, .f32⟩
  | .local _ .vmem, ⟨17, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S40x64_S64x40_1_0 : S40x64.Transposes [1, 0] S64x40
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x40.size a ≤ S64x40.size a
  hwx1_2 : ∀ i : grid1.Coords, EltTy.bits .f32 = 32 ∨ (Rect.block (s := S64x40) S64x40.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40.size a ≤ S40.size a
  hwx1_3 : ∀ i : grid1.Coords, EltTy.bits .f32 = 32 ∨ (Rect.block (s := S40) S40.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x40.size a ≤ S64x40.size a
  hwx1_4 : ∀ i : grid1.Coords, EltTy.bits .f32 = 32 ∨ (Rect.block (s := S64x40) S64x40.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x40.size a ≤ S100000x40.size a
  hwx1_5 : ∀ i : grid1.Coords, EltTy.bits .f32 = 32 ∨ (Rect.block (s := S100000x40) S5000x40.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v24) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S64x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S64x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S64x128 : Shape := ⟨2, ![64, 128]⟩
abbrev S64 : Shape := ⟨1, ![64]⟩
abbrev S40x64 : Shape := ⟨2, ![40, 64]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S1600000x64 : Shape := ⟨2, ![1600000, 64]⟩
abbrev S64x40 : Shape := ⟨2, ![64, 40]⟩
abbrev S100000x40 : Shape := ⟨2, ![100000, 40]⟩
abbrev S1x40 : Shape := ⟨2, ![1, 40]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S40x64, .f32⟩
  | .hbm, ⟨6, _⟩ => ⟨S40, .f32⟩
  | .hbm, ⟨7, _⟩ => ⟨S40x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S128x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S1x1600000, .i32⟩
  | .hbm, ⟨50, _⟩ => ⟨S1600000, .i32⟩
  | .hbm, ⟨51, _⟩ => ⟨S1x1600000, .i32⟩
  | .hbm, ⟨52, _⟩ => ⟨S1600000, .i32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S_, .f32⟩
  | .hbm, ⟨67, _⟩ => ⟨S1600000, .f32⟩
  | .hbm, ⟨68, _⟩ => ⟨S_, .f32⟩
  | .hbm, ⟨69, _⟩ => ⟨S100000, .f32⟩
  | .hbm, ⟨70, _⟩ => ⟨S1600000x1, .i32⟩
  | .hbm, ⟨71, _⟩ => ⟨S100000, .f32⟩
  | .hbm, ⟨72, _⟩ => ⟨S_, .f32⟩
  | .hbm, ⟨73, _⟩ => ⟨S_, .f32⟩
  | .hbm, ⟨74, _⟩ => ⟨S100000, .f32⟩
  | .hbm, ⟨75, _⟩ => ⟨S100000, .f32⟩
  | .hbm, ⟨76, _⟩ => ⟨S100000x1, .f32⟩
  | .hbm, ⟨77, _⟩ => ⟨S100000x64, .f32⟩
  | .hbm, ⟨78, _⟩ => ⟨S100000x64, .f32⟩
  | .hbm, ⟨79, _⟩ => ⟨S64x40, .f32⟩
  | .hbm, ⟨80, _⟩ => ⟨S100000x40, .f32⟩
  | .hbm, ⟨81, _⟩ => ⟨S1x40, .f32⟩
  | .hbm, ⟨82, _⟩ => ⟨S100000x40, .f32⟩
  | .hbm, ⟨83, _⟩ => ⟨S100000x40, .f32⟩
  | .hbm, ⟨84, _⟩ => ⟨S64x40, .f32⟩
  | .hbm, ⟨85, _⟩ => ⟨S100000x40, .f32⟩
  | .hbm, ⟨86, _⟩ => ⟨S100000x40, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S100000, .f32⟩
  | .hbm, ⟨91, _⟩ => ⟨S100000, .f32⟩
  | .hbm, ⟨92, _⟩ => ⟨S100000x1, .f32⟩
  | .hbm, ⟨93, _⟩ => ⟨S100000x40, .f32⟩
  | .hbm, ⟨94, _⟩ => ⟨S100000x40, .f32⟩
  | .hbm, ⟨95, _⟩ => ⟨S100000x40, .f32⟩
  | .hbm, ⟨96, _⟩ => ⟨S_, .f32⟩
  | .hbm, ⟨97, _⟩ => ⟨S100000, .f32⟩
  | .hbm, ⟨98, _⟩ => ⟨S100000x1, .f32⟩
  | .hbm, ⟨99, _⟩ => ⟨S100000x40, .f32⟩
  | .hbm, ⟨100, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_4 : Ref sig .tc := ⟨.hbm, 53, rfl⟩
abbrev main_v35 : Ref sig .tc := ⟨.hbm, 54, rfl⟩
abbrev main_v36 : Ref sig .tc := ⟨.hbm, 55, rfl⟩
abbrev main_c_5 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_7 : Ref sig .tc := ⟨.hbm, 66, rfl⟩
abbrev main_v45 : Ref sig .tc := ⟨.hbm, 67, rfl⟩
abbrev main_cst_8 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_10 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.LibPlainMatmul.lean ====
/-
  A general fact about the ideal reading of a matrix product, independent of any program: a kernel's matrix product of an
  m×k by a k×n matrix (no batch axis; the left operand's columns contracted with the right operand's rows) into a zero
  accumulator, read at the entry (a, b), is the textbook sum  Σ_c A(a, c) · B(c, b)  on the extended reals.
  (The host's `dot_general` of the same shape has this reading in the library already; this is its twin for the kernel's
  accumulate-into-zero form.)
-/
import Idealize.ShloMosaic.PureOps.Ideal.Laws
import Idealize.ShloMosaic.Lib.ValueIdx

noncomputable section

namespace Idealize.ShloMosaic.LibPlainMatmul

open Idealize.ShloMosaic Idealize.ShloMosaic.ValueIdx

/-- The plain product of an m×k by a k×n matrix accumulated into the f32 zero splat, at the ideal values and at the
    entry (a, b): the sum over the contracted coordinate c of A(a, c) · B(c, b). -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  show FloatOps.matmul (DotDims.plain m k n) prec A B (constant (⟨2, ![m, n]⟩ : Shape) .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c): its row is the output's row, its column the contracted coordinate
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  -- the right operand at (c, b): its row the contracted coordinate, its column the output's column
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Idealize.ShloMosaic.LibPlainMatmul

end
-- ==== Proof.LibGraphConv.lean ====
/-
  General facts about one graph-convolution layer read on the extended reals, independent of any program.

  The layer: from a matrix A of neighbour means and the node features X (both M×K), two weight matrices W, W' (K×N) and a
  bias b (N entries), entry (p, q) of the result is
      (Σ_k A(p,k)·W(k,q) + Σ_k X(p,k)·W'(k,q)) + b(q),
  clamped below at zero when the layer has a rectifier (`layer`).
  * A kernel that multiplies a row tile of A and of X by the weights into zero accumulators, adds the two products, adds
    the bias row copied down the tile and takes the maximum with zero computes, at a tile entry, this expression of the
    tile's rows (`tile_apply`).
  * The host's form — (A·W + b) + X·W', the bias copied along the rows, then the maximum with a zero splat — is the same
    function: only the order of the two additions differs, and addition of extended reals is commutative and associative
    (`host_layer_eq`, `host_layer_relu_eq`).
  * The neighbour mean: a sum array S divided entrywise by the column max(deg, 1) is S times the column 1/max(deg, 1),
    because max(deg, 1) ≥ 1 is never zero, and off zero the ideal quotient x / y is x · y⁻¹ while 1 / y is y⁻¹
    (`mul_recip_eq_div`, `mean_mul_eq_div`).
-/
import Idealize.ShloMosaic.PureOps.Ideal.Laws
import Idealize.ShloMosaic.Lib.ValueIdx
import Idealize.ShloMosaic.Lib.Pipeline.Value
import Idealize.ShloMosaic.Lib.IdealHost
import Idealize.ShloMosaic.Lib.StackMember
import proofs.«137805_j36344013259391_1_alg».proof.Proof.LibPlainMatmul

noncomputable section

namespace LibGraphConv

open Idealize.ShloMosaic Idealize.ShloMosaic.ValueIdx

/-! ## The layer as one function of whole arrays -/

/-- Entry (p, q) of a graph-convolution layer: (Σ_k A(p,k)·W(k,q) + Σ_k X(p,k)·W'(k,q)) + b(q), clamped below at zero
    when `relu` is set. -/
def layer (relu : Bool) {M K N : ℕ} (A X : FVec Ideal ⟨2, ![M, K]⟩ .f32) (W : FVec Ideal ⟨2, ![K, N]⟩ .f32)
    (b : FVec Ideal ⟨1, ![N]⟩ .f32) (W' : FVec Ideal ⟨2, ![K, N]⟩ .f32) : FVec Ideal ⟨2, ![M, N]⟩ .f32 :=
  fun i => if relu then
      max (((∑ k : Fin K, A (ix2 (i 0) k) * W (ix2 k (i 1))) + ∑ k : Fin K, X (ix2 (i 0) k) * W' (ix2 k (i 1))) + b (ix1 (i 1))) 0
    else ((∑ k : Fin K, A (ix2 (i 0) k) * W (ix2 k (i 1))) + ∑ k : Fin K, X (ix2 (i 0) k) * W' (ix2 k (i 1))) + b (ix1 (i 1))

theorem layer_apply (relu : Bool) {M K N : ℕ} (A X : FVec Ideal ⟨2, ![M, K]⟩ .f32) (W : FVec Ideal ⟨2, ![K, N]⟩ .f32)
    (b : FVec Ideal ⟨1, ![N]⟩ .f32) (W' : FVec Ideal ⟨2, ![K, N]⟩ .f32) (p : Fin M) (q : Fin N) :
    layer relu A X W b W' (ix2 p q) = if relu then
      max (((∑ k : Fin K, A (ix2 p k) * W (ix2 k q)) + ∑ k : Fin K, X (ix2 p k) * W' (ix2 k q)) + b (ix1 q)) 0
    else ((∑ k : Fin K, A (ix2 p k) * W (ix2 k q)) + ∑ k : Fin K, X (ix2 p k) * W' (ix2 k q)) + b (ix1 q) := rfl

/-! ## A kernel's tile -/

/-- A one-row matrix copied down M rows reads, at (p, q), the row's entry q. -/
theorem broadcastTo_row_apply {α : Type} {M N : ℕ} (v : (⟨2, ![1, N]⟩ : Shape).Idx → α)
    (h : (⟨2, ![1, N]⟩ : Shape).Broadcasts ⟨2, ![M, N]⟩) (p : Fin M) (q : Fin N) :
    broadcastTo ⟨2, ![M, N]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if N = 1 then 0 else q.val
    split
    · have := q.isLt; omega
    · rfl

/-- The two products of a tile into zero accumulators, added, plus the bias row copied down the tile: at a tile entry
    the two sums over the contracted coordinate and the bias entry of that column. -/
theorem tile_apply {M K N : ℕ} {φ₁ φ₂ : FTy} (A X : FVec Ideal ⟨2, ![M, K]⟩ φ₁) (W W' : FVec Ideal ⟨2, ![K, N]⟩ φ₂)
    (b2 : FVec Ideal ⟨2, ![1, N]⟩ .f32) (hb : (⟨2, ![1, N]⟩ : Shape).Broadcasts ⟨2, ![M, N]⟩) (p : Fin M) (q : Fin N) :
    addf (addf (matmul (DotDims.plain M K N) none A W (constant (⟨2, ![M, N]⟩ : Shape) .f32 0x00000000#32))
        (matmul (DotDims.plain M K N) none X W' (constant (⟨2, ![M, N]⟩ : Shape) .f32 0x00000000#32)))
      (broadcastTo ⟨2, ![M, N]⟩ b2 hb) (ix2 p q)
    = ((∑ k : Fin K, A (ix2 p k) * W (ix2 k q)) + ∑ k : Fin K, X (ix2 p k) * W' (ix2 k q)) + b2 (ix2 (0 : Fin 1) q) := by
  rw [addf_apply, addf_apply, LibPlainMatmul.matmul_plain_zero_apply, LibPlainMatmul.matmul_plain_zero_apply,
    broadcastTo_row_apply]

/-- A vector cast to one row reads, at (0, q), the vector's entry q. -/
theorem shapeCast_row_apply {α : Type} {N : ℕ} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) :=
  shapeCast_apply b h _ _ (by
    rw [Shape.rowMajor_val_two, Shape.rowMajor_val_one]
    show q.val = 0 * N + q.val
    omega)

/-- So the bias a kernel stages as one row is, column by column, the bias vector. -/
theorem row_of_cast {α : Type} {N : ℕ} (b : (⟨1, ![N]⟩ : Shape).Idx → α)
    (h : (⟨1, ![N]⟩ : Shape).ShapeCasts ⟨2, ![1, N]⟩) :
    (fun u : (⟨1, ![N]⟩ : Shape).Idx => shapeCast ⟨2, ![1, N]⟩ b h (ix2 (0 : Fin 1) (u 0))) = b :=
  funext fun u => (shapeCast_row_apply b h (u 0)).trans (congrArg b (eq_ix1 u).symm)

/-! ## The host's form of the layer -/

/-- A vector laid as one row and copied down M rows reads, at (p, q), the vector's entry q. -/
theorem bias_rows_apply {α : Type} {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun ax => by
    match ax with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun ax => by
    match ax with
    | ⟨0, _⟩ =>
      show q.val = if N = 1 then 0 else q.val
      split
      · have := q.isLt; omega
      · rfl)

/-- The host's (A·W + b) + X·W' is the layer without a rectifier: the two additions in the other order. -/
theorem host_layer_eq {M K N : ℕ} (A X : FVec Ideal ⟨2, ![M, K]⟩ .f32) (W W' : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (addf (Host.dotGeneral (DotDims.plain M K N) none A W)
        (broadcastInDim ⟨2, ![M, N]⟩ ![0, 1] h2 (broadcastInDim ⟨2, ![1, N]⟩ ![1] h1 b)))
      (Host.dotGeneral (DotDims.plain M K N) none X W')
    = layer false A X W b W' := by
  funext i
  obtain ⟨p, q, rfl⟩ : ∃ (p : Fin M) (q : Fin N), i = ix2 p q := ⟨i 0, i 1, eq_ix2 i⟩
  rw [layer_apply, addf_apply, addf_apply, StackMember.dotGeneral_plain_apply, StackMember.dotGeneral_plain_apply,
    bias_rows_apply]
  exact add_right_comm _ _ _

/-- … and with the maximum against a zero splat it is the layer with its rectifier. -/
theorem host_layer_relu_eq {M K N : ℕ} (A X : FVec Ideal ⟨2, ![M, K]⟩ .f32) (W W' : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf (addf (Host.dotGeneral (DotDims.plain M K N) none A W)
        (broadcastInDim ⟨2, ![M, N]⟩ ![0, 1] h2 (broadcastInDim ⟨2, ![1, N]⟩ ![1] h1 b)))
      (Host.dotGeneral (DotDims.plain M K N) none X W'))
      (broadcastInDim ⟨2, ![M, N]⟩ ![] h0 (constant (⟨0, ![]⟩ : Shape) .f32 0x00000000#32))
    = layer true A X W b W' := by
  rw [host_layer_eq]
  funext i
  obtain ⟨p, q, rfl⟩ : ∃ (p : Fin M) (q : Fin N), i = ix2 p q := ⟨i 0, i 1, eq_ix2 i⟩
  rw [maximumf_apply, layer_apply, layer_apply,
    broadcastInDim_apply ![] h0 _ (ix2 p q) ix0 (fun ax => ax.elim0), constant_apply, Ideal.ofBits_zero_f32]
  rfl

/-! ## The neighbour mean: times the reciprocal column, or divided by the column -/

/-- Off zero the ideal quotient is the product with the inverse, so x · (1 / y) = x / y. -/
theorem mul_recip_eq_div (x y : EReal) (hy : y ≠ 0) : x * Ideal.div 1 y = Ideal.div x y := by
  unfold Ideal.div
  rw [if_neg hy, if_neg hy, one_mul]

/-- A vector of per-row values made a column and copied across the row reads, at (p, q), the value of row p. -/
theorem column_apply {α : Type} {n K : ℕ} (v : (⟨1, ![n]⟩ : Shape).Idx → α)
    (h1 : (⟨1, ![n]⟩ : Shape).BroadcastsInDim ⟨2, ![n, 1]⟩ ![0])
    (h2 : (⟨2, ![n, 1]⟩ : Shape).BroadcastsInDim ⟨2, ![n, K]⟩ ![0, 1]) (p : Fin n) (q : Fin K) :
    broadcastInDim ⟨2, ![n, K]⟩ ![0, 1] h2 (broadcastInDim ⟨2, ![n, 1]⟩ ![0] h1 v) (ix2 p q) = v (ix1 p) := by
  rw [broadcastInDim_apply ![0, 1] h2 _ (ix2 p q) (ix2 p (0 : Fin 1)) (fun ax => by
    match ax with
    | ⟨0, _⟩ =>
      show p.val = if n = 1 then 0 else p.val
      split
      · have := p.isLt; omega
      · rfl
    | ⟨1, _⟩ => rfl)]
  exact broadcastInDim_apply ![0] h1 v (ix2 p (0 : Fin 1)) (ix1 p) (fun ax => by
    match ax with
    | ⟨0, _⟩ =>
      show p.val = if n = 1 then 0 else p.val
      split
      · have := p.isLt; omega
      · rfl)

/-- The sums S times the column 1 / max(deg, 1) is S divided by the column max(deg, 1): the divisor is at least one. -/
theorem mean_mul_eq_div {n K : ℕ} (S : FVec Ideal ⟨2, ![n, K]⟩ .f32) (deg : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, K]⟩ ![0, 1]) :
    mulf S (broadcastInDim ⟨2, ![n, K]⟩ ![0, 1] h2 (broadcastInDim ⟨2, ![n, 1]⟩ ![0] h1
      (Host.divf (broadcastInDim ⟨1, ![n]⟩ ![] h0 (constant (⟨0, ![]⟩ : Shape) .f32 0x3F800000#32))
        (maximumf deg (broadcastInDim ⟨1, ![n]⟩ ![] h0 (constant (⟨0, ![]⟩ : Shape) .f32 0x3F800000#32))))))
    = Host.divf S (broadcastInDim ⟨2, ![n, K]⟩ ![0, 1] h2 (broadcastInDim ⟨2, ![n, 1]⟩ ![0] h1
        (maximumf deg (broadcastInDim ⟨1, ![n]⟩ ![] h0 (constant (⟨0, ![]⟩ : Shape) .f32 0x3F800000#32))))) := by
  funext i
  obtain ⟨p, q, rfl⟩ : ∃ (p : Fin n) (q : Fin K), i = ix2 p q := ⟨i 0, i 1, eq_ix2 i⟩
  rw [mulf_apply, column_apply]
  show S (ix2 p q) * Ideal.div _ _ = Ideal.div (S (ix2 p q)) _
  rw [column_apply, maximumf_apply, broadcastInDim_apply ![] h0 _ (ix1 p) ix0 (fun ax => ax.elim0), constant_apply,
    Ideal.ofBits_one_f32]
  refine mul_recip_eq_div _ _ ?_
  exact (lt_of_lt_of_le zero_lt_one (le_max_right _ _)).ne'

end LibGraphConv

end
-- ==== Proof.Chain.lean ====
/-
  The two-layer mean-aggregating graph convolution as ONE function of the program's eight arguments.

  From the edge list `e` (row 0 the source node of every edge, row 1 its destination) the host makes: the source
  indices with a negative word wrapped once by the node count; the destination indices as a one-column table; the
  in-degree of every node (a scatter-add of ones), clamped below at one, and the column of its reciprocals. A layer's
  neighbour sums gather the source rows and scatter-add them at the destinations; the neighbour mean is the sums
  times the reciprocal column copied along each row. Layer one is the rectified layer of the mean and the features;
  layer two the same sums and mean of layer one's output and a linear layer (its softmax along each row is applied
  where the two programs are joined).
  The spelling is the kernel program's own host operations, so that each of its buffers reads as one of these
  functions by computation; the reference's spelling (a division by the clamped degree) is joined to it in the
  module that reads the reference.
-/
import proofs.«137805_j36344013259391_1_alg».proof.Proof.Gen.KernelIdeal
import proofs.«137805_j36344013259391_1_alg».proof.Proof.LibGraphConv
import Idealize.ShloMosaic.PureOps.Ideal

noncomputable section

namespace Cert.Chain

open Cert.KernelIdeal Cert.KernelIdeal.Facts₀ Idealize.ShloMosaic

/-- Row 0 of the edge list: the source node of every edge. -/
def srcRow (e : IVec S2x1600000 32) : IVec S1600000 32 :=
  shapeCast _ (extractStridedSlice S1x1600000 ![0, 0] e slices_S2x1600000_S1x1600000_0_0) shapeCasts_S1x1600000_S1600000

/-- Row 1 of the edge list: the destination node of every edge. -/
def dstRow (e : IVec S2x1600000 32) : IVec S1600000 32 :=
  shapeCast _ (extractStridedSlice S1x1600000 ![1, 0] e slices_S2x1600000_S1x1600000_1_0) shapeCasts_S1x1600000_S1600000

/-- The destinations as a one-column index table. -/
def dstCol (e : IVec S2x1600000 32) : IVec S1600000x1 32 :=
  broadcastInDim S1600000x1 ![0] bcast_S1600000_S1600000x1_0 (dstRow e)

/-- The sources, a negative word wrapped once by the number of nodes, as a one-column index table. -/
def srcCol (e : IVec S2x1600000 32) : IVec S1600000x1 32 :=
  broadcastInDim S1600000x1 ![0] bcast_S1600000_S1600000x1_0
    (select (cmpi .slt (srcRow e) (broadcastInDim S1600000 ![] bcast_S_S1600000 (constantI S_ 32 0#32)))
      (addi (srcRow e) (broadcastInDim S1600000 ![] bcast_S_S1600000 (constantI S_ 32 100000#32))) (srcRow e))

/-- The in-degree of every node: ones scatter-added at the destinations. -/
def deg (e : IVec S2x1600000 32) : FVec Ideal S100000 .f32 :=
  Host.scatterAdd scatter_S100000_S1600000x1_S1600000_n_0_0_1
    (broadcastInDim S100000 ![] bcast_S_S100000 (constant (F := Ideal) S_ .f32 0x00000000#32)) (dstCol e)
    (broadcastInDim S1600000 ![] bcast_S_S1600000 (constant (F := Ideal) S_ .f32 0x3F800000#32))

/-- The in-degree clamped below at one. -/
def clipDeg (e : IVec S2x1600000 32) : FVec Ideal S100000 .f32 :=
  maximumf (broadcastInDim S100000 ![] bcast_S_S100000 (id (constant (F := Ideal) S_ .f32 0x3F800000#32))) (deg e)

/-- The column of reciprocals 1 / max(1, degree). -/
def invCol (e : IVec S2x1600000 32) : FVec Ideal S100000x1 .f32 :=
  broadcastInDim S100000x1 ![0] bcast_S100000_S100000x1_0
    (Host.divf (broadcastInDim S100000 ![] bcast_S_S100000 (constant (F := Ideal) S_ .f32 0x3F800000#32)) (clipDeg e))

/-- Layer one's neighbour sums: the source rows of the features, scatter-added at the destinations. -/
def agg128 (x : FVec Ideal S100000x128 .f32) (e : IVec S2x1600000 32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstCol e)
    (Host.gather gather_S100000x128_S1600000x1_S1600000x128_1_0_n_n_0_1_1128 x (srcCol e))

/-- Layer two's neighbour sums. -/
def agg64 (h : FVec Ideal S100000x64 .f32) (e : IVec S2x1600000 32) : FVec Ideal S100000x64 .f32 :=
  Host.scatterAdd scatter_S100000x64_S1600000x1_S1600000x64_1_0_0_1
    (broadcastInDim S100000x64 ![] bcast_S_S100000x64 (constant (F := Ideal) S_ .f32 0x00000000#32)) (dstCol e)
    (Host.gather gather_S100000x64_S1600000x1_S1600000x64_1_0_n_n_0_1_164 h (srcCol e))

/-- Layer one's neighbour means: the sums times the reciprocal column along each row. -/
def mean128 (x : FVec Ideal S100000x128 .f32) (e : IVec S2x1600000 32) : FVec Ideal S100000x128 .f32 :=
  mulf (agg128 x e) (broadcastInDim S100000x128 ![0, 1] bcast_S100000x1_S100000x128_0_1 (invCol e))

/-- Layer two's neighbour means. -/
def mean64 (h : FVec Ideal S100000x64 .f32) (e : IVec S2x1600000 32) : FVec Ideal S100000x64 .f32 :=
  mulf (agg64 h e) (broadcastInDim S100000x64 ![0, 1] bcast_S100000x1_S100000x64_0_1 (invCol e))

/-- A layer-one weight matrix, transposed. -/
def tr1 (w : FVec Ideal S64x128 .f32) : FVec Ideal S128x64 .f32 := transpose S128x64 [1, 0] w transposes_S64x128_S128x64_1_0

/-- A layer-two weight matrix, transposed. -/
def tr2 (w : FVec Ideal S40x64 .f32) : FVec Ideal S64x40 .f32 := transpose S64x40 [1, 0] w transposes_S40x64_S64x40_1_0

/-- Layer one: the rectified layer of the neighbour means and the features. -/
def hidden (x : FVec Ideal S100000x128 .f32) (e : IVec S2x1600000 32) (wl : FVec Ideal S64x128 .f32)
    (bl : FVec Ideal S64 .f32) (wr : FVec Ideal S64x128 .f32) : FVec Ideal S100000x64 .f32 :=
  LibGraphConv.layer true (mean128 x e) x (tr1 wl) bl (tr1 wr)

/-- Layer two before its softmax: the linear layer of the means of layer one's output and that output. -/
def logits (x : FVec Ideal S100000x128 .f32) (e : IVec S2x1600000 32) (wl1 : FVec Ideal S64x128 .f32)
    (bl1 : FVec Ideal S64 .f32) (wr1 : FVec Ideal S64x128 .f32) (wl2 : FVec Ideal S40x64 .f32) (bl2 : FVec Ideal S40 .f32)
    (wr2 : FVec Ideal S40x64 .f32) : FVec Ideal S100000x40 .f32 :=
  LibGraphConv.layer false (mean64 (hidden x e wl1 bl1 wr1) e) (hidden x e wl1 bl1 wr1) (tr2 wl2) bl2 (tr2 wr2)

end Cert.Chain

end
-- ==== Proof.Region0.lean ====
import proofs.«137805_j36344013259391_1_alg».proof.Proof.Gen.KernelIdeal.Frame
import proofs.«137805_j36344013259391_1_alg».proof.Proof.LibPlainMatmul
import proofs.«137805_j36344013259391_1_alg».proof.Proof.LibGraphConv
import Idealize.ShloMosaic.Lib.ValueIdx
import Idealize.ShloMosaic.Lib.Pipeline.Value
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem
open Idealize.ShloMosaic.Pipeline (Dat Cfg Window)

/-! # The first region: one graph-convolution layer with a rectifier, as one function of whole arrays

Each of the twenty grid points handles a tile of 5000 consecutive rows. For those rows it forms
  max((mean_tile · WlT + bl) + x_tile · WrT, 0),
both products summed over the 128 contracted columns; the weight matrices and the bias are read whole at every point.
Entry (r, q) of the output therefore depends only on row r of the mean array and of the feature array, on column q of the
two weight matrices and on entry q of the bias. The tiles of the twenty points are disjoint and fill the 100000 rows, so
the array the region leaves is the layer evaluated on the whole arrays. -/

/-! ## A tile entry -/

/-- Entry (p, q) of what the body stores for a tile: the two sums over the contracted coordinate, the bias entry of column
    q, and the maximum with zero. Rounding the operands to a shorter format is the identity on the extended reals, a
    product accumulated into zeros is the plain sum, the cast to the same shape changes nothing; the body adds the bias
    before the second product, and addition is commutative and associative. -/
theorem pay_apply (a x : Vec Ideal S5000x128 .f32) (w w' : Vec Ideal S128x64 .f32) (b : Vec Ideal S64 .f32)
    (p : Fin 5000) (q : Fin 64) :
    k0_pay1 (F := Ideal) a x w w' b (ix2 p q)
      = max (((∑ k : Fin 128, a (ix2 p k) * w (ix2 k q)) + ∑ k : Fin 128, x (ix2 p k) * w' (ix2 k q)) + b (ix1 q)) 0 := by
  have hd : dot_S5000x128_S128x64_S5000x64_1_0_0_1_n_n = DotDims.plain 5000 128 64 := rfl
  unfold k0_pay1
  simp only [shapeCast_self, hd]
  rw [maximumf_apply, addf_apply, addf_apply, broadcast_apply,
    LibPlainMatmul.matmul_plain_zero_apply, LibPlainMatmul.matmul_plain_zero_apply,
    LibGraphConv.broadcastTo_row_apply, LibGraphConv.shapeCast_row_apply]
  show max ((∑ k : Fin 128, a (ix2 p k) * w (ix2 k q) + b (ix1 q)) + ∑ k : Fin 128, x (ix2 p k) * w' (ix2 k q))
      (Ideal.ofBits .f32 0x00000000#32) = _
  rw [Ideal.ofBits_zero_f32, add_right_comm]

/-- The same entry when the tile's rows are rows of larger arrays: if row p of each row tile is row r of its array, and
    the weights and the bias are the whole arrays, the entry is entry (r, q) of the layer. -/
theorem tile_entry (a x : Vec Ideal S5000x128 .f32) (w w' : Vec Ideal S128x64 .f32) (b : Vec Ideal S64 .f32)
    (A X : FVec Ideal S100000x128 .f32) (W W' : FVec Ideal S128x64 .f32) (B : FVec Ideal S64 .f32)
    (p : Fin 5000) (q : Fin 64) (r : Fin 100000)
    (ha : ∀ k : Fin 128, a (ix2 p k) = A (ix2 r k)) (hx : ∀ k : Fin 128, x (ix2 p k) = X (ix2 r k))
    (hw : ∀ k : Fin 128, w (ix2 k q) = W (ix2 k q)) (hw' : ∀ k : Fin 128, w' (ix2 k q) = W' (ix2 k q))
    (hb : b (ix1 q) = B (ix1 q)) :
    k0_pay1 (F := Ideal) a x w w' b (ix2 p q) = LibGraphConv.layer true A X W B W' (ix2 r q) := by
  rw [pay_apply, LibGraphConv.layer_apply, if_pos rfl]
  simp only [ha, hx, hw, hw', hb]

/-! ## Where the blocks sit -/

theorem zeros2 : (![0, 0] : Fin 2 → Nat) = fun _ => 0 :=
  funext fun a => by match a with | ⟨0, _⟩ => rfl | ⟨1, _⟩ => rfl

theorem zeros1 : (![0] : Fin 1 → Nat) = fun _ => 0 :=
  funext fun a => by match a with | ⟨0, _⟩ => rfl

/-- The block indices at grid point t, decided over the twenty points: the two row-tiled inputs and the output sit at row
    block t and column block 0; the weights and the bias always at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b)) (c : Dev nD)

/-- Row p of the mean tile at point t is row 5000·t + p of the mean array. -/
theorem mean_block (t : Fin cfg0.N) (p : Fin 5000) (k : Fin 128) (r : Fin 100000) (hr : r.val = t.val * 5000 + p.val) :
    (iblk0 (F := Ideal) V c 0 t : Vec Ideal S5000x128 .f32) (ix2 p k) = (V c main_v23 : FVec Ideal S100000x128 .f32) (ix2 r k) := by
  obtain ⟨e0, e1, -⟩ := block_indices t
  unfold iblk0
  rw [View.read_apply]
  show V c main_v23 _ = V c main_v23 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- Row p of the feature tile at point t is row 5000·t + p of the feature array. -/
theorem feature_block (t : Fin cfg0.N) (p : Fin 5000) (k : Fin 128) (r : Fin 100000) (hr : r.val = t.val * 5000 + p.val) :
    (iblk0 (F := Ideal) V c 1 t : Vec Ideal S5000x128 .f32) (ix2 p k) = (V c main_arg0 : FVec Ideal S100000x128 .f32) (ix2 r k) := by
  obtain ⟨-, -, e0, e1, -⟩ := block_indices t
  unfold iblk0
  rw [View.read_apply]
  show V c main_arg0 _ = V c main_arg0 _
  congr 1
  funext a
  apply Fin.ext
  match a with
  | ⟨0, _⟩ => show win0_1.index t (0 : Fin 2) * 5000 + 1 * p.val = r.val; omega
  | ⟨1, _⟩ => show win0_1.index t (1 : Fin 2) * 128 + 1 * k.val = k.val; omega

/-- The first weight block at any point is the whole first weight matrix. -/
theorem weight_block (t : Fin cfg0.N) (k : Fin 128) (q : Fin 64) :
    (iblk0 (F := Ideal) V c 2 t : Vec Ideal S128x64 .f32) (ix2 k q) = (V c main_v24 : FVec Ideal S128x64 .f32) (ix2 k q) := by
  obtain ⟨-, -, -, -, e0, e1, -⟩ := block_indices t
  unfold iblk0
  rw [View.read_apply]
  show V c main_v24 _ = V c main_v24 _
  congr 1
  funext a
  apply Fin.ext
  match a with
  | ⟨0, _⟩ => show win0_2.index t (0 : Fin 2) * 128 + 1 * k.val = k.val; omega
  | ⟨1, _⟩ => show win0_2.index t (1 : Fin 2) * 64 + 1 * q.val = q.val; omega

/-- The bias block at any point is the whole bias. -/
theorem bias_block (t : Fin cfg0.N) (q : Fin 64) :
    (iblk0 (F := Ideal) V c 3 t : Vec Ideal S64 .f32) (ix1 q) = (V c main_arg3 : FVec Ideal S64 .f32) (ix1 q) := by
  obtain ⟨-, -, -, -, -, -, e0, -⟩ := block_indices t
  unfold iblk0
  rw [View.read_apply]
  show V c main_arg3 _ = V c main_arg3 _
  congr 1
  funext a
  apply Fin.ext
  match a with
  | ⟨0, _⟩ => show win0_3.index t (0 : Fin 1) * 64 + 1 * q.val = q.val; omega

/-- The second weight block at any point is the whole second weight matrix. -/
theorem weight'_block (t : Fin cfg0.N) (k : Fin 128) (q : Fin 64) :
    (iblk0 (F := Ideal) V c 4 t : Vec Ideal S128x64 .f32) (ix2 k q) = (V c main_v25 : FVec Ideal S128x64 .f32) (ix2 k q) := by
  obtain ⟨-, -, -, -, -, -, -, e0, e1, -⟩ := block_indices t
  unfold iblk0
  rw [View.read_apply]
  show V c main_v25 _ = V c main_v25 _
  congr 1
  funext a
  apply Fin.ext
  match a with
  | ⟨0, _⟩ => show win0_4.index t (0 : Fin 2) * 128 + 1 * k.val = k.val; omega
  | ⟨1, _⟩ => show win0_4.index t (1 : Fin 2) * 64 + 1 * q.val = q.val; omega

/-! ## What a point writes back -/

/-- Point t writes back rows 5000·t … 5000·t + 4999 of the layer of the whole arrays. -/
theorem flushed_eq (t : Fin cfg0.N) :
    (dat0 (F := Ideal) V c).flushed 5 t = ((cfg0.win 5).blk t).view.read (Elt Ideal)
      (LibGraphConv.layer true (V c main_v23) (V c main_arg0) (V c main_v24) (V c main_arg3) (V c main_v25)) := by
  show (cfg0.win 5).cut (grid0.coords t) ((dat0 (F := Ideal) V c).after 5 t) = _
  rw [after0_5]
  unfold out0_5
  rw [View.canon_unit_zero zeros2]
  simp only [View.ld_unit_zero (S := S5000x128) zeros2, View.ld_unit_zero (S := S128x64) zeros2,
    View.ld_unit_zero (S := S64) zeros1]
  obtain ⟨-, -, -, -, -, -, -, -, -, e0, e1⟩ := block_indices t
  have ht : t.val < 20 := by have := t.isLt; have hN : cfg0.N = 20 := N_0; omega
  funext j
  obtain ⟨p, q, rfl⟩ : ∃ (p : Fin 5000) (q : Fin 64), j = ix2 p q := ⟨j 0, j 1, eq_ix2 j⟩
  have hp : p.val < 5000 := p.isLt
  have hemb : ((cfg0.win 5).blk t).view.emb (ix2 p q)
      = (ix2 (⟨t.val * 5000 + p.val, by omega⟩ : Fin 100000) q : S100000x64.Idx) := by
    funext a
    apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  show k0_pay1 (F := Ideal) (iblk0 V c 0 t) (iblk0 V c 1 t) (iblk0 V c 2 t) (iblk0 V c 4 t) (iblk0 V c 3 t) (ix2 p q)
    = LibGraphConv.layer true (V c main_v23) (V c main_arg0) (V c main_v24) (V c main_arg3) (V c main_v25)
        (((cfg0.win 5).blk t).view.emb (ix2 p q))
  rw [hemb]
  exact tile_entry _ _ _ _ _ _ _ _ _ _ p q _
    (fun k => mean_block V c t p k _ rfl) (fun k => feature_block V c t p k _ rfl)
    (fun k => weight_block V c t k q) (fun k => weight'_block V c t k q) (bias_block V c t q)

end Blocks

/-! ## The tiles fill the array -/

/-- An entry lies in point t's tile iff each coordinate lies in the tile's range on its axis. -/
theorem mem_tile (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- Row r lies in the tile of point r / 5000, and every point writes its tile back: every entry is covered. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 5000 :=
    ⟨⟨(i 0).val / 5000, by have hN : cfg0.N = 20 := N_0; omega⟩, rfl⟩
  refine ⟨t, flush0_5 t, ?_⟩
  rw [mem_tile]
  obtain ⟨-, -, -, -, -, -, -, -, -, e0, e1⟩ := block_indices t
  intro a
  match a with
  | ⟨0, _⟩ =>
    show win0_5.index t (0 : Fin 2) * 5000 ≤ (i 0).val ∧ (i 0).val < win0_5.index t (0 : Fin 2) * 5000 + 5000
    omega
  | ⟨1, _⟩ =>
    show win0_5.index t (1 : Fin 2) * 64 ≤ (i 1).val ∧ (i 1).val < win0_5.index t (1 : Fin 2) * 64 + 64
    omega

/-! ## The array the region leaves -/

/-- After the region the output array is the layer, with its rectifier, of the mean array, the feature array, the two
    weight matrices and the bias as the region found them. -/
theorem final0 (V : (c : Dev nD) → (b : Ref sig .tc) → Buf (Elt Ideal) ((c : Thread nD τ).loc b)) (c : Dev nD) :
    (dat0 (F := Ideal) V c).arrAt 5 cfg0.N
      = LibGraphConv.layer true (V c main_v23) (V c main_arg0) (V c main_v24) (V c main_arg3) (V c main_v25) :=
  (dat0 (F := Ideal) V c).arrAt_eq_of_cover 5 _ (fun t _ => flushed_eq V c t) covered

end Cert.KernelIdeal.Region0

end
-- ==== Proof.LibColumn.lean ====
/-
  Two layout readings a row reduction with kept dimensions needs: a length-a vector cast to an a × 1 column, and an
  a × 1 column broadcast along the rows of an a × b array, each read at an index.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Softmax.lean ====
/-
  The row softmax on the extended reals, as one function of a whole M × N array, and its two spellings.

  For a row p: mx p = max(−∞, fold of max from −∞ over the row's entries), and entry (p, q) of the result is
      exp(z(p,q) − mx p) / Σ_k exp(z(p,k) − mx p).
  * A kernel takes the row maximum by a reduction over axis 1 whose accumulator is −∞, then the maximum with a −∞ splat,
    lays the result as a column copied along the row, subtracts, exponentiates, sums the row (accumulator zero), lays the
    sums as a column again and divides (`tile_softmax_apply`).
  * The host does the same with its own reductions and two broadcasts in place of the column cast and copy; its row sum
    starts from an initial value zero, and 0 + Σ = Σ (`host_softmax_eq`).
-/
import Idealize.ShloMosaic.PureOps.Ideal.Laws
import Idealize.ShloMosaic.PureOps.Reduce
import Idealize.ShloMosaic.Lib.ValueIdx
import Idealize.ShloMosaic.Lib.IdealHost
import Idealize.ShloMosaic.Lib.Pipeline.Value
import proofs.«137805_j36344013259391_1_alg».proof.Proof.LibColumn
import proofs.«137805_j36344013259391_1_alg».proof.Proof.LibGraphConv

noncomputable section

namespace Cert.Softmax

open Idealize.ShloMosaic Idealize.ShloMosaic.ValueIdx

/-- The maximum a row softmax subtracts: max(−∞, the fold of max from −∞ over the row). The −∞ is kept as the bit
    pattern's value and never evaluated. -/
def rowMax {M N : ℕ} (z : FVec Ideal ⟨2, ![M, N]⟩ .f32) (p : Fin M) : EReal :=
  max (Ideal.ofBits .f32 0xFF800000#32)
    ((Finset.univ : Finset (Fin N)).fold max (Ideal.ofBits .f32 0xFF800000#32) (fun k => z (ix2 p k)))

/-- Entry (p, q) of the row softmax: exp(z(p,q) − mx p) / Σ_k exp(z(p,k) − mx p). -/
def softmax {M N : ℕ} (z : FVec Ideal ⟨2, ![M, N]⟩ .f32) : FVec Ideal ⟨2, ![M, N]⟩ .f32 :=
  fun i => Ideal.div (Ideal.exp (z i - rowMax z (i 0))) (∑ k : Fin N, Ideal.exp (z (ix2 (i 0) k) - rowMax z (i 0)))

theorem softmax_apply {M N : ℕ} (z : FVec Ideal ⟨2, ![M, N]⟩ .f32) (p : Fin M) (q : Fin N) :
    softmax z (ix2 p q)
      = Ideal.div (Ideal.exp (z (ix2 p q) - rowMax z p)) (∑ k : Fin N, Ideal.exp (z (ix2 p k) - rowMax z p)) := rfl

/-! ## A row's softmax reads only that row -/

theorem rowMax_congr {M M' N : ℕ} (z : FVec Ideal ⟨2, ![M, N]⟩ .f32) (z' : FVec Ideal ⟨2, ![M', N]⟩ .f32) (p : Fin M)
    (p' : Fin M') (h : ∀ k : Fin N, z (ix2 p k) = z' (ix2 p' k)) : rowMax z p = rowMax z' p' := by
  unfold rowMax
  rw [show (fun k : Fin N => z (ix2 p k)) = fun k => z' (ix2 p' k) from funext h]

/-- Two arrays that agree along a row (row p of one, row p' of the other) have the same softmax along it. -/
theorem softmax_row_congr {M M' N : ℕ} (z : FVec Ideal ⟨2, ![M, N]⟩ .f32) (z' : FVec Ideal ⟨2, ![M', N]⟩ .f32) (p : Fin M)
    (p' : Fin M') (h : ∀ k : Fin N, z (ix2 p k) = z' (ix2 p' k)) (q : Fin N) :
    softmax z (ix2 p q) = softmax z' (ix2 p' q) := by
  rw [softmax_apply, softmax_apply, rowMax_congr z z' p p' h, h q]
  refine congrArg (Ideal.div _) (Finset.sum_congr rfl fun k _ => ?_)
  rw [h k]

/-! ## Reading the pieces at an index -/

/-- Over a row index p, the source index of a reduction along axis 1 with coordinate k inserted is (p, k). -/
theorem lift_row {M N : ℕ} (h : (⟨2, ![M, N]⟩ : Shape).Reduces [1] ⟨1, ![M]⟩) (p : Fin M) (k : Fin N) :
    h.lift (ix1 p) k = ix2 p k := by
  funext c
  match c with
  | ⟨0, _⟩ => exact Fin.ext rfl
  | ⟨1, _⟩ => exact Fin.ext rfl

/-- The kernel's row maximum — a reduction along axis 1 from −∞, then the maximum with a −∞ splat — at row p. -/
theorem kernel_max_apply {M N : ℕ} (z : FVec Ideal ⟨2, ![M, N]⟩ .f32)
    (hr : (⟨2, ![M, N]⟩ : Shape).Reduces [1] ⟨1, ![M]⟩) (hφ : FKind.Formats .f32)
    (hmax : (0xFF800000#32 : BitVec 32) = FKind.maximumf.neutral .f32 hφ) (p : Fin M) :
    maximumf (broadcast ⟨1, ![M]⟩ (Scalar.ofBits .f32 0xFF800000#32))
      (multiReduction .maximumf [1] ⟨1, ![M]⟩ z 0xFF800000#32 hr hφ hmax) (ix1 p) = rowMax z p := by
  rw [maximumf_apply, broadcast_apply, Ideal.multiReduction_maximumf_single]
  have e : (z ∘ hr.lift (ix1 p)) = fun k : Fin N => z (ix2 p k) := funext fun k => congrArg z (lift_row hr p k)
  rw [e]
  rfl

/-- A column of per-row values mx copied along the rows, subtracted, exponentiated, and divided by the column of the
    row sums of the exponentials: at (p, q), exp(z(p,q) − mx p) over Σ_k exp(z(p,k) − mx p). The kernel's layout. -/
theorem kernel_norm_apply {M N : ℕ} (z : FVec Ideal ⟨2, ![M, N]⟩ .f32) (mx : FVec Ideal ⟨1, ![M]⟩ .f32)
    (hr : (⟨2, ![M, N]⟩ : Shape).Reduces [1] ⟨1, ![M]⟩) (hc : (⟨1, ![M]⟩ : Shape).ShapeCasts ⟨2, ![M, 1]⟩)
    (hb : (⟨2, ![M, 1]⟩ : Shape).Broadcasts ⟨2, ![M, N]⟩) (hφ : FKind.Formats .f32)
    (hadd : (0x00000000#32 : BitVec 32) = FKind.add.neutral .f32 hφ) (p : Fin M) (q : Fin N) :
    divf (exp (subf z (broadcastTo ⟨2, ![M, N]⟩ (shapeCast ⟨2, ![M, 1]⟩ mx hc) hb)))
      (broadcastTo ⟨2, ![M, N]⟩ (shapeCast ⟨2, ![M, 1]⟩
        (multiReduction .add [1] ⟨1, ![M]⟩ (exp (subf z (broadcastTo ⟨2, ![M, N]⟩ (shapeCast ⟨2, ![M, 1]⟩ mx hc) hb)))
          0x00000000#32 hr hφ hadd) hc) hb) (ix2 p q)
      = Ideal.div (Ideal.exp (z (ix2 p q) - mx (ix1 p))) (∑ k : Fin N, Ideal.exp (z (ix2 p k) - mx (ix1 p))) := by
  have hcol : ∀ (v : FVec Ideal ⟨1, ![M]⟩ .f32) (k : Fin N),
      broadcastTo ⟨2, ![M, N]⟩ (shapeCast ⟨2, ![M, 1]⟩ v hc) hb (ix2 p k) = v (ix1 p) := fun v k => by
    rw [LibColumn.broadcastTo_a1_ab_apply, LibColumn.shapeCast_a_a1_apply]
  have he : ∀ k : Fin N, exp (subf z (broadcastTo ⟨2, ![M, N]⟩ (shapeCast ⟨2, ![M, 1]⟩ mx hc) hb)) (ix2 p k)
      = Ideal.exp (z (ix2 p k) - mx (ix1 p)) := fun k => by
    show Ideal.exp (z (ix2 p k) - broadcastTo ⟨2, ![M, N]⟩ (shapeCast ⟨2, ![M, 1]⟩ mx hc) hb (ix2 p k)) = _
    rw [hcol]
  rw [divf_apply, he, hcol, Ideal.multiReduction_add_single]
  refine congrArg (Ideal.div _) (Finset.sum_congr rfl fun k _ => ?_)
  exact (congrArg (exp (subf z (broadcastTo ⟨2, ![M, N]⟩ (shapeCast ⟨2, ![M, 1]⟩ mx hc) hb))) (lift_row hr p k)).trans (he k)

/-- The host's row maximum — its reduction along dimension 1 from the −∞ constant, then the maximum with that constant
    copied to every row — at row p. -/
theorem host_max_apply {M N : ℕ} (z : FVec Ideal ⟨2, ![M, N]⟩ .f32)
    (h' : (⟨2, ![M, N]⟩ : Shape).ReducesTo [1] ⟨1, ![M]⟩) (hR : (⟨2, ![M, N]⟩ : Shape).Reduces [1] ⟨1, ![M]⟩)
    (hS : 0 < (⟨0, ![]⟩ : Shape).numel) (h0 : (⟨0, ![]⟩ : Shape).BroadcastsInDim ⟨1, ![M]⟩ ![]) (p : Fin M) :
    maximumf (broadcastInDim ⟨1, ![M]⟩ ![] h0 (constant (F := Ideal) (⟨0, ![]⟩ : Shape) .f32 0xFF800000#32))
      (Host.reduce FloatOps.maximumf z (constant (F := Ideal) (⟨0, ![]⟩ : Shape) .f32 0xFF800000#32) h' hS) (ix1 p)
      = rowMax z p := by
  rw [maximumf_apply, broadcastInDim_apply ![] h0 _ (ix1 p) ix0 (fun ax => ax.elim0), constant_apply,
    Host.reduce_eq_fold_single FloatOps.maximumf z _ h' hR hS, constant_apply]
  have e : (z ∘ hR.lift (ix1 p)) = fun k : Fin N => z (ix2 p k) := funext fun k => congrArg z (lift_row hR p k)
  rw [e]
  rfl

/-- The same normalisation in the host's layout: the per-row values made a column and copied along the row by two
    broadcasts, the row sum started from the constant zero. -/
theorem host_norm_apply {M N : ℕ} (z : FVec Ideal ⟨2, ![M, N]⟩ .f32) (mx : FVec Ideal ⟨1, ![M]⟩ .f32)
    (h' : (⟨2, ![M, N]⟩ : Shape).ReducesTo [1] ⟨1, ![M]⟩) (hR : (⟨2, ![M, N]⟩ : Shape).Reduces [1] ⟨1, ![M]⟩)
    (hS : 0 < (⟨0, ![]⟩ : Shape).numel)
    (h1 : (⟨1, ![M]⟩ : Shape).BroadcastsInDim ⟨2, ![M, 1]⟩ ![0])
    (h2 : (⟨2, ![M, 1]⟩ : Shape).BroadcastsInDim ⟨2, ![M, N]⟩ ![0, 1]) (p : Fin M) (q : Fin N) :
    Host.divf (Host.exp (subf z (broadcastInDim ⟨2, ![M, N]⟩ ![0, 1] h2 (broadcastInDim ⟨2, ![M, 1]⟩ ![0] h1 mx))))
      (broadcastInDim ⟨2, ![M, N]⟩ ![0, 1] h2 (broadcastInDim ⟨2, ![M, 1]⟩ ![0] h1
        (Host.reduceAdd (Host.exp (subf z (broadcastInDim ⟨2, ![M, N]⟩ ![0, 1] h2 (broadcastInDim ⟨2, ![M, 1]⟩ ![0] h1 mx))))
          (constant (F := Ideal) (⟨0, ![]⟩ : Shape) .f32 0x00000000#32) h' hS))) (ix2 p q)
      = Ideal.div (Ideal.exp (z (ix2 p q) - mx (ix1 p))) (∑ k : Fin N, Ideal.exp (z (ix2 p k) - mx (ix1 p))) := by
  have he : ∀ k : Fin N,
      Host.exp (subf z (broadcastInDim ⟨2, ![M, N]⟩ ![0, 1] h2 (broadcastInDim ⟨2, ![M, 1]⟩ ![0] h1 mx))) (ix2 p k)
      = Ideal.exp (z (ix2 p k) - mx (ix1 p)) := fun k => by
    show Ideal.exp (z (ix2 p k) - broadcastInDim ⟨2, ![M, N]⟩ ![0, 1] h2 (broadcastInDim ⟨2, ![M, 1]⟩ ![0] h1 mx) (ix2 p k)) = _
    rw [LibGraphConv.column_apply]
  rw [hostDivf_apply, he, LibGraphConv.column_apply, hostReduceAdd_apply, Ideal.hostReduceAdd_single h' hR, constant_apply,
    Ideal.ofBits_zero_f32, zero_add]
  refine congrArg (Ideal.div _) (Finset.sum_congr rfl fun k _ => ?_)
  rw [lift_row hR p k]
  exact he k

/-! ## The two spellings -/

/-- The kernel's spelling read at (p, q). -/
theorem tile_softmax_apply {M N : ℕ} (z : FVec Ideal ⟨2, ![M, N]⟩ .f32)
    (hr : (⟨2, ![M, N]⟩ : Shape).Reduces [1] ⟨1, ![M]⟩) (hc : (⟨1, ![M]⟩ : Shape).ShapeCasts ⟨2, ![M, 1]⟩)
    (hb : (⟨2, ![M, 1]⟩ : Shape).Broadcasts ⟨2, ![M, N]⟩) (hφ : FKind.Formats .f32)
    (hmax : (0xFF800000#32 : BitVec 32) = FKind.maximumf.neutral .f32 hφ)
    (hadd : (0x00000000#32 : BitVec 32) = FKind.add.neutral .f32 hφ) (p : Fin M) (q : Fin N) :
    divf (exp (subf z (broadcastTo ⟨2, ![M, N]⟩ (shapeCast ⟨2, ![M, 1]⟩
          (maximumf (broadcast ⟨1, ![M]⟩ (Scalar.ofBits .f32 0xFF800000#32))
            (multiReduction .maximumf [1] ⟨1, ![M]⟩ z 0xFF800000#32 hr hφ hmax)) hc) hb)))
      (broadcastTo ⟨2, ![M, N]⟩ (shapeCast ⟨2, ![M, 1]⟩
        (multiReduction .add [1] ⟨1, ![M]⟩ (exp (subf z (broadcastTo ⟨2, ![M, N]⟩ (shapeCast ⟨2, ![M, 1]⟩
          (maximumf (broadcast ⟨1, ![M]⟩ (Scalar.ofBits .f32 0xFF800000#32))
            (multiReduction .maximumf [1] ⟨1, ![M]⟩ z 0xFF800000#32 hr hφ hmax)) hc) hb))) 0x00000000#32 hr hφ hadd) hc) hb)
      (ix2 p q) = softmax z (ix2 p q) := by
  rw [kernel_norm_apply, softmax_apply, kernel_max_apply]

/-- The host's spelling, as one equation of whole arrays. -/
theorem host_softmax_eq {M N : ℕ} (z : FVec Ideal ⟨2, ![M, N]⟩ .f32)
    (h' : (⟨2, ![M, N]⟩ : Shape).ReducesTo [1] ⟨1, ![M]⟩) (hR : (⟨2, ![M, N]⟩ : Shape).Reduces [1] ⟨1, ![M]⟩)
    (hS : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1]) :
    Host.divf (Host.exp (subf z (broadcastInDim ⟨2, ![M, N]⟩ ![0, 1] h2 (broadcastInDim ⟨2, ![M, 1]⟩ ![0] h1
        (maximumf (broadcastInDim ⟨1, ![M]⟩ ![] h0 (constant (F := Ideal) (⟨0, ![]⟩ : Shape) .f32 0xFF800000#32))
          (Host.reduce FloatOps.maximumf z (constant (F := Ideal) (⟨0, ![]⟩ : Shape) .f32 0xFF800000#32) h' hS))))))
      (broadcastInDim ⟨2, ![M, N]⟩ ![0, 1] h2 (broadcastInDim ⟨2, ![M, 1]⟩ ![0] h1
        (Host.reduceAdd (Host.exp (subf z (broadcastInDim ⟨2, ![M, N]⟩ ![0, 1] h2 (broadcastInDim ⟨2, ![M, 1]⟩ ![0] h1
          (maximumf (broadcastInDim ⟨1, ![M]⟩ ![] h0 (constant (F := Ideal) (⟨0, ![]⟩ : Shape) .f32 0xFF800000#32))
            (Host.reduce FloatOps.maximumf z (constant (F := Ideal) (⟨0, ![]⟩ : Shape) .f32 0xFF800000#32) h' hS))))))
          (constant (F := Ideal) (⟨0, ![]⟩ : Shape) .f32 0x00000000#32) h' hS)))
    = softmax z := by
  funext i
  obtain ⟨p, q, rfl⟩ : ∃ (p : Fin M) (q : Fin N), i = ix2 p q := ⟨i 0, i 1, eq_ix2 i⟩
  rw [host_norm_apply z _ h' hR hS h1 h2, softmax_apply, host_max_apply z h' hR hS h0]

end Cert.Softmax

end
-- ==== Proof.Pay1.lean ====
/-
  The body of the second kernel on one tile, as mathematics. From a 5000-row tile of the neighbour means and of the node
  features, the two 64 × 40 weight matrices and the 40 biases, the body forms
      z = (means · W + b) + features · W'
  (the products accumulate into zeros; narrowing an operand is the identity on the extended reals; the bias is laid as one
  row and copied down the tile) and then the row softmax of z. So the body's value IS the softmax of the tile's own
  5000-row linear layer; the layer's entry adds the two products first and the bias last, and addition of extended reals
  may be regrouped that way.
-/
import proofs.«137805_j36344013259391_1_alg».proof.Proof.Gen.KernelIdeal.Frame
import proofs.«137805_j36344013259391_1_alg».proof.Proof.LibPlainMatmul
import proofs.«137805_j36344013259391_1_alg».proof.Proof.LibGraphConv
import proofs.«137805_j36344013259391_1_alg».proof.Proof.Softmax
import Idealize.ShloMosaic.Lib.ValueIdx
import Idealize.ShloMosaic.Lib.Pipeline.Value
import Idealize.ShloMosaic.PureOps.Ideal.Laws

noncomputable section

namespace Cert.KernelIdeal.Region1

open Cert.KernelIdeal Cert.KernelIdeal.Gen Idealize.ShloMosaic Idealize.ShloMosaic.ValueIdx

/-- The tile's value before the softmax: (means · W + bias row copied down) + features · W'. -/
def pre (a h : Vec Ideal S5000x64 .f32) (w w' : Vec Ideal S64x40 .f32) (b : Vec Ideal S40 .f32) : FVec Ideal S5000x40 .f32 :=
  addf (addf
      (matmul dot_S5000x64_S64x40_S5000x40_1_0_0_1_n_n none
        (truncf .bf16 (shapeCast S5000x64 a shapeCasts_S5000x64_S5000x64) bitsLt_bf16_f32)
        (truncf .bf16 (shapeCast S64x40 w shapeCasts_S64x40_S64x40) bitsLt_bf16_f32) (constant S5000x40 .f32 0x00000000#32))
      (broadcastTo S5000x40 (shapeCast S1x40 b shapeCasts_S40_S1x40) broadcasts_S1x40_S5000x40))
    (matmul dot_S5000x64_S64x40_S5000x40_1_0_0_1_n_n none
      (truncf .bf16 (shapeCast S5000x64 h shapeCasts_S5000x64_S5000x64) bitsLt_bf16_f32)
      (truncf .bf16 (shapeCast S64x40 w' shapeCasts_S64x40_S64x40) bitsLt_bf16_f32) (constant S5000x40 .f32 0x00000000#32))

/-- Entry (p, k) of it is the linear layer's entry of the tile: the same three terms, the bias added last. -/
theorem pre_apply (a h : Vec Ideal S5000x64 .f32) (w w' : Vec Ideal S64x40 .f32) (b : Vec Ideal S40 .f32) (p : Fin 5000)
    (k : Fin 40) : pre a h w w' b (ix2 p k) = LibGraphConv.layer false a h w b w' (ix2 p k) := by
  have hd : dot_S5000x64_S64x40_S5000x40_1_0_0_1_n_n = DotDims.plain 5000 64 40 := rfl
  unfold pre
  rw [addf_apply, addf_apply, hd, LibPlainMatmul.matmul_plain_zero_apply, LibPlainMatmul.matmul_plain_zero_apply,
    LibGraphConv.broadcastTo_row_apply, LibGraphConv.shapeCast_row_apply, LibGraphConv.layer_apply]
  simp only [truncf_apply, shapeCast_self, Bool.false_eq_true, if_false]
  exact add_right_comm _ _ _

/-- The body's value on a tile is the softmax of the tile's linear layer. -/
theorem pay_tile (a h : Vec Ideal S5000x64 .f32) (w w' : Vec Ideal S64x40 .f32) (b : Vec Ideal S40 .f32) :
    k1_pay1 (F := Ideal) a h w w' b = Cert.Softmax.softmax (LibGraphConv.layer false a h w b w') := by
  funext j
  obtain ⟨p, q, rfl⟩ : ∃ (p : Fin 5000) (q : Fin 40), j = ix2 p q := ⟨j 0, j 1, eq_ix2 j⟩
  refine (Cert.Softmax.tile_softmax_apply (M := 5000) (N := 40) (pre a h w w' b) reduces_S5000x40_S5000
    shapeCasts_S5000_S5000x1 broadcasts_S5000x1_S5000x40 (.inl rfl) rfl rfl p q).trans ?_
  exact Cert.Softmax.softmax_row_congr _ _ p p (fun k => pre_apply a h w w' b p k) q

end Cert.KernelIdeal.Region1

end
-- ==== Proof.Region1.lean ====
import proofs.«137805_j36344013259391_1_alg».proof.Proof.Gen.KernelIdeal.Frame
import proofs.«137805_j36344013259391_1_alg».proof.Proof.LibGraphConv
import proofs.«137805_j36344013259391_1_alg».proof.Proof.Softmax
import proofs.«137805_j36344013259391_1_alg».proof.Proof.Pay1
import Idealize.ShloMosaic.Lib.ValueIdx
import Idealize.ShloMosaic.Lib.Pipeline.Value
import Idealize.ShloMosaic.PureOps.Ideal.Laws

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem
open Idealize.ShloMosaic.Pipeline (Dat Cfg Window)

/-! # The second region: a linear graph-convolution layer followed by a softmax along each row, on whole arrays

Each of the twenty grid points handles a tile of 5000 consecutive rows: it forms the linear layer
  (mean_tile · WlT + bl) + h_tile · WrT
of the tile's rows (the two weight matrices and the bias read whole at every point) and takes the softmax of each row of
the result. A row's softmax reads only that row, and row p of the tile's linear layer is row 5000·t + p of the linear layer
of the whole arrays, so the tile a point writes back is its rows of the softmax of the whole linear layer. The tiles of the
twenty points are disjoint and fill the 100000 rows. -/

/-! ## A row of a tile's linear layer -/

/-- If row p of each row tile is row r of its array, and the weights and the bias are the whole arrays, then row p of the
    tile's linear layer is row r of the arrays' linear layer: entry by entry the same two sums and the same bias entry. -/
theorem tile_row (a x : Vec Ideal S5000x64 .f32) (w w' : Vec Ideal S64x40 .f32) (b : Vec Ideal S40 .f32)
    (A X : FVec Ideal S100000x64 .f32) (W W' : FVec Ideal S64x40 .f32) (B : FVec Ideal S40 .f32)
    (p : Fin 5000) (r : Fin 100000)
    (ha : ∀ k : Fin 64, a (ix2 p k) = A (ix2 r k)) (hx : ∀ k : Fin 64, x (ix2 p k) = X (ix2 r k))
    (hw : ∀ (k : Fin 64) (q : Fin 40), w (ix2 k q) = W (ix2 k q))
    (hw' : ∀ (k : Fin 64) (q : Fin 40), w' (ix2 k q) = W' (ix2 k q))
    (hb : ∀ q : Fin 40, b (ix1 q) = B (ix1 q)) (q : Fin 40) :
    LibGraphConv.layer false a x w b w' (ix2 p q) = LibGraphConv.layer false A X W B W' (ix2 r q) := by
  rw [LibGraphConv.layer_apply, LibGraphConv.layer_apply, if_neg Bool.false_ne_true, if_neg Bool.false_ne_true]
  simp only [ha, hx, hw, hw', hb]

/-! ## Where the blocks sit -/

theorem zeros2 : (![0, 0] : Fin 2 → Nat) = fun _ => 0 :=
  funext fun a => by match a with | ⟨0, _⟩ => rfl | ⟨1, _⟩ => rfl

theorem zeros1 : (![0] : Fin 1 → Nat) = fun _ => 0 :=
  funext fun a => by match a with | ⟨0, _⟩ => rfl

/-- The block indices at grid point t, decided over the twenty points: the two row-tiled inputs and the output sit at row
    block t and column block 0; the weights and the bias always at block 0. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Blocks
variable (V : (c : Dev nD) → (b : Ref sig .tc) → Buf (Elt Ideal) ((c : Thread nD τ).loc b)) (c : Dev nD)

/-- Row p of the mean tile at point t is row 5000·t + p of the mean array. -/
theorem mean_block (t : Fin cfg1.N) (p : Fin 5000) (k : Fin 64) (r : Fin 100000) (hr : r.val = t.val * 5000 + p.val) :
    (iblk1 (F := Ideal) V c 0 t : Vec Ideal S5000x64 .f32) (ix2 p k) = (V c main_v38 : FVec Ideal S100000x64 .f32) (ix2 r k) := by
  obtain ⟨e0, e1, -⟩ := block_indices t
  unfold iblk1
  rw [View.read_apply]
  show V c main_v38 _ = V c main_v38 _
  congr 1
  funext a
  apply Fin.ext
  match a with
  | ⟨0, _⟩ => show win1_0.index t (0 : Fin 2) * 5000 + 1 * p.val = r.val; omega
  | ⟨1, _⟩ => show win1_0.index t (1 : Fin 2) * 64 + 1 * k.val = k.val; omega

/-- Row p of the hidden-feature tile at point t is row 5000·t + p of the hidden-feature array. -/
theorem hidden_block (t : Fin cfg1.N) (p : Fin 5000) (k : Fin 64) (r : Fin 100000) (hr : r.val = t.val * 5000 + p.val) :
    (iblk1 (F := Ideal) V c 1 t : Vec Ideal S5000x64 .f32) (ix2 p k) = (V c main_v26 : FVec Ideal S100000x64 .f32) (ix2 r k) := by
  obtain ⟨-, -, e0, e1, -⟩ := block_indices t
  unfold iblk1
  rw [View.read_apply]
  show V c main_v26 _ = V c main_v26 _
  congr 1
  funext a
  apply Fin.ext
  match a with
  | ⟨0, _⟩ => show win1_1.index t (0 : Fin 2) * 5000 + 1 * p.val = r.val; omega
  | ⟨1, _⟩ => show win1_1.index t (1 : Fin 2) * 64 + 1 * k.val = k.val; omega

/-- The first weight block at any point is the whole first weight matrix. -/
theorem weight_block (t : Fin cfg1.N) (k : Fin 64) (q : Fin 40) :
    (iblk1 (F := Ideal) V c 2 t : Vec Ideal S64x40 .f32) (ix2 k q) = (V c main_v39 : FVec Ideal S64x40 .f32) (ix2 k q) := by
  obtain ⟨-, -, -, -, e0, e1, -⟩ := block_indices t
  unfold iblk1
  rw [View.read_apply]
  show V c main_v39 _ = V c main_v39 _
  congr 1
  funext a
  apply Fin.ext
  match a with
  | ⟨0, _⟩ => show win1_2.index t (0 : Fin 2) * 64 + 1 * k.val = k.val; omega
  | ⟨1, _⟩ => show win1_2.index t (1 : Fin 2) * 40 + 1 * q.val = q.val; omega

/-- The bias block at any point is the whole bias. -/
theorem bias_block (t : Fin cfg1.N) (q : Fin 40) :
    (iblk1 (F := Ideal) V c 3 t : Vec Ideal S40 .f32) (ix1 q) = (V c main_arg6 : FVec Ideal S40 .f32) (ix1 q) := by
  obtain ⟨-, -, -, -, -, -, e0, -⟩ := block_indices t
  unfold iblk1
  rw [View.read_apply]
  show V c main_arg6 _ = V c main_arg6 _
  congr 1
  funext a
  apply Fin.ext
  match a with
  | ⟨0, _⟩ => show win1_3.index t (0 : Fin 1) * 40 + 1 * q.val = q.val; omega

/-- The second weight block at any point is the whole second weight matrix. -/
theorem weight'_block (t : Fin cfg1.N) (k : Fin 64) (q : Fin 40) :
    (iblk1 (F := Ideal) V c 4 t : Vec Ideal S64x40 .f32) (ix2 k q) = (V c main_v40 : FVec Ideal S64x40 .f32) (ix2 k q) := by
  obtain ⟨-, -, -, -, -, -, -, e0, e1, -⟩ := block_indices t
  unfold iblk1
  rw [View.read_apply]
  show V c main_v40 _ = V c main_v40 _
  congr 1
  funext a
  apply Fin.ext
  match a with
  | ⟨0, _⟩ => show win1_4.index t (0 : Fin 2) * 64 + 1 * k.val = k.val; omega
  | ⟨1, _⟩ => show win1_4.index t (1 : Fin 2) * 40 + 1 * q.val = q.val; omega

/-! ## What a point writes back -/

/-- Point t writes back rows 5000·t … 5000·t + 4999 of the softmax of the whole arrays' linear layer: the tile is the
    softmax of its own linear layer, a row's softmax reads only that row, and the rows agree. -/
theorem flushed_eq (t : Fin cfg1.N) :
    (dat1 (F := Ideal) V c).flushed 5 t = ((cfg1.win 5).blk t).view.read (Elt Ideal)
      (Cert.Softmax.softmax
        (LibGraphConv.layer false (V c main_v38) (V c main_v26) (V c main_v39) (V c main_arg6) (V c main_v40))) := by
  show (cfg1.win 5).cut (grid1.coords t) ((dat1 (F := Ideal) V c).after 5 t) = _
  rw [after1_5]
  unfold out1_5
  rw [View.canon_unit_zero zeros2]
  simp only [View.ld_unit_zero (S := S5000x64) zeros2, View.ld_unit_zero (S := S64x40) zeros2,
    View.ld_unit_zero (S := S40) zeros1]
  obtain ⟨-, -, -, -, -, -, -, -, -, e0, e1⟩ := block_indices t
  have ht : t.val < 20 := by have := t.isLt; have hN : cfg1.N = 20 := N_1; omega
  funext j
  obtain ⟨p, q, rfl⟩ : ∃ (p : Fin 5000) (q : Fin 40), j = ix2 p q := ⟨j 0, j 1, eq_ix2 j⟩
  have hp : p.val < 5000 := p.isLt
  have hemb : ((cfg1.win 5).blk t).view.emb (ix2 p q)
      = (ix2 (⟨t.val * 5000 + p.val, by omega⟩ : Fin 100000) q : S100000x40.Idx) := by
    funext a
    apply Fin.ext
    match a with
    | ⟨0, _⟩ => show win1_5.index t (0 : Fin 2) * 5000 + 1 * p.val = t.val * 5000 + p.val; omega
    | ⟨1, _⟩ => show win1_5.index t (1 : Fin 2) * 40 + 1 * q.val = q.val; omega
  show k1_pay1 (F := Ideal) (iblk1 V c 0 t) (iblk1 V c 1 t) (iblk1 V c 2 t) (iblk1 V c 4 t) (iblk1 V c 3 t) (ix2 p q)
    = Cert.Softmax.softmax
        (LibGraphConv.layer false (V c main_v38) (V c main_v26) (V c main_v39) (V c main_arg6) (V c main_v40))
        (((cfg1.win 5).blk t).view.emb (ix2 p q))
  rw [hemb]
  refine (congrFun (pay_tile _ _ _ _ _) (ix2 p q)).trans ?_
  exact Cert.Softmax.softmax_row_congr _ _ p _ (fun k => tile_row _ _ _ _ _ _ _ _ _ _ p _
    (fun k' => mean_block V c t p k' _ rfl) (fun k' => hidden_block V c t p k' _ rfl)
    (fun k' q' => weight_block V c t k' q') (fun k' q' => weight'_block V c t k' q')
    (fun q' => bias_block V c t q') k) q

end Blocks

/-! ## The tiles fill the array -/

/-- An entry lies in point t's tile iff each coordinate lies in the tile's range on its axis. -/
theorem mem_tile (t : Fin cfg1.N) (i : S100000x40.Idx) :
    i ∈ ((cfg1.win 5).blk t).view.set ↔ ∀ a : Fin 2, win1_5.index t a * S5000x40.size a ≤ (i a).val
      ∧ (i a).val < win1_5.index t a * S5000x40.size a + S5000x40.size a := by
  show i ∈ ((View.whole main_v41).slice (win1_5.rect t)).set ↔ _
  rw [View.set_slice_whole, Rect.mem_set_unit]
  exact Iff.rfl

/-- Row r lies in the tile of point r / 5000, and every point writes its tile back: every entry is covered. -/
theorem covered (i : S100000x40.Idx) :
    ∃ t : Fin cfg1.N, (cfg1.win 5).flush t = true ∧ i ∈ ((cfg1.win 5).blk t).view.set := by
  have hi0 : (i 0).val < 100000 := (i 0).isLt
  have hi1 : (i 1).val < 40 := (i 1).isLt
  obtain ⟨t, ht⟩ : ∃ t : Fin cfg1.N, t.val = (i 0).val / 5000 :=
    ⟨⟨(i 0).val / 5000, by have hN : cfg1.N = 20 := N_1; omega⟩, rfl⟩
  refine ⟨t, flush1_5 t, ?_⟩
  rw [mem_tile]
  obtain ⟨-, -, -, -, -, -, -, -, -, e0, e1⟩ := block_indices t
  intro a
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 40 ≤ (i 1).val ∧ (i 1).val < win1_5.index t (1 : Fin 2) * 40 + 40
    omega

/-! ## The array the region leaves -/

/-- After the region the output array is the row softmax of the linear layer of the mean array, the hidden-feature array,
    the two weight matrices and the bias as the region found them. -/
theorem final1 (V : (c : Dev nD) → (b : Ref sig .tc) → Buf (Elt Ideal) ((c : Thread nD τ).loc b)) (c : Dev nD) :
    (dat1 (F := Ideal) V c).arrAt 5 cfg1.N
      = Cert.Softmax.softmax (LibGraphConv.layer false (V c main_v38) (V c main_v26) (V c main_v39) (V c main_arg6) (V c main_v40)) :=
  (dat1 (F := Ideal) V c).arrAt_eq_of_cover 5 _ (fun t _ => flushed_eq V c t) covered

end Cert.KernelIdeal.Region1

end
-- ==== Proof.KernelValue.lean ====
/-
  What the kernel program's result buffer holds after the run, as the network of the arguments.

  The run leaves, at every boundary between a stretch of host operations and a kernel region, each buffer at a known
  function of the launch memory. Walking that fold: before region 0 the host has made the edge indices, the reciprocal
  column and layer one's neighbour means, and transposed the two weight matrices; region 0 leaves layer one's output
  (the rectified layer, one whole array); the host then makes layer two's neighbour means from it with the same
  indices and the same column; region 1 leaves the softmax of layer two's linear layer.
-/
import proofs.«137805_j36344013259391_1_alg».proof.Proof.KernelRun
import proofs.«137805_j36344013259391_1_alg».proof.Proof.Chain
import proofs.«137805_j36344013259391_1_alg».proof.Proof.Region0
import proofs.«137805_j36344013259391_1_alg».proof.Proof.Region1
import Idealize.ShloMosaic.Lib.StableHlo.Run

set_option maxRecDepth 16384

noncomputable section

namespace Cert.KernelIdeal.Val

open Cert.KernelIdeal Cert.KernelIdeal.Gen Cert.Chain
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The host operations, one stretch at a time, from any contents

Each stretch of host operations is read as a function of the buffers it finds, whatever they hold; the run's fold then
supplies those buffers one boundary at a time. -/

section Stretches

variable (W : Valuation τ sig (Elt Ideal))

set_option maxHeartbeats 400000 in
/-- The clamp: the maximum of the one, copied to every node, and the degree. -/
theorem clip_stage (one : FVec Ideal S_ .f32) (d : FVec Ideal S100000 .f32)
    (h1 : one = W (Proc.devRef .tc main_cst_1)) (h7 : d = W (Proc.devRef .tc main_v7)) :
    StableHlo.after (hostOps0_1 (F := Ideal)) W (Proc.devRef .tc main_v8)
      = maximumf (broadcastInDim S100000 ![] bcast_S_S100000 (id one)) d := by
  subst h1 h7
  dsimp only [hostOps0_1]
  after_results
  rfl

set_option maxHeartbeats 400000 in
/-- The column of reciprocals of the clamped degree. -/
theorem recip_stage (cl : FVec Ideal S100000 .f32) (h8 : cl = W (Proc.devRef .tc main_v8)) :
    StableHlo.after (hostOps0_2 (F := Ideal)) W (Proc.devRef .tc main_v11)
    = broadcastInDim S100000x1 ![0] bcast_S100000_S100000x1_0
        (Host.divf (broadcastInDim S100000 ![] bcast_S_S100000 (constant (F := Ideal) S_ .f32 0x3F800000#32)) cl) := by
  subst h8
  dsimp only [hostOps0_2]
  after_results

set_option maxHeartbeats 400000 in
/-- Layer one's neighbour means from the index rows, the features and the clamped degree. -/
theorem mean_stage (cl : FVec Ideal S100000 .f32) (s d : IVec S1600000 32) (x : FVec Ideal S100000x128 .f32)
    (h8 : cl = W (Proc.devRef .tc main_v8)) (hs : s = W (Proc.devRef .tc main_v1)) (hd : d = W (Proc.devRef .tc main_v3))
    (hx : x = W (Proc.devRef .tc main_arg0)) :
    StableHlo.after (hostOps0_2 (F := Ideal)) W (Proc.devRef .tc main_v23)
    = mulf (Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 d)
          (Host.gather gather_S100000x128_S1600000x1_S1600000x128_1_0_n_n_0_1_1128 x
            (broadcastInDim S1600000x1 ![0] bcast_S1600000_S1600000x1_0
              (select (cmpi .slt s (broadcastInDim S1600000 ![] bcast_S_S1600000 (constantI S_ 32 0#32)))
                (addi s (broadcastInDim S1600000 ![] bcast_S_S1600000 (constantI S_ 32 100000#32))) s))))
        (broadcastInDim S100000x128 ![0, 1] bcast_S100000x1_S100000x128_0_1
          (broadcastInDim S100000x1 ![0] bcast_S100000_S100000x1_0
            (Host.divf (broadcastInDim S100000 ![] bcast_S_S100000 (constant (F := Ideal) S_ .f32 0x3F800000#32)) cl))) := by
  subst h8 hs hd hx
  dsimp only [hostOps0_2]
  after_results
  try rfl

set_option maxHeartbeats 400000 in
/-- Layer two's neighbour means from the index rows, layer one's output and the reciprocal column. -/
theorem mean2_stage (col : FVec Ideal S100000x1 .f32) (s d : IVec S1600000 32) (h : FVec Ideal S100000x64 .f32)
    (h11 : col = W (Proc.devRef .tc main_v11)) (hs : s = W (Proc.devRef .tc main_v1)) (hd : d = W (Proc.devRef .tc main_v3))
    (hh : h = W (Proc.devRef .tc main_v26)) :
    StableHlo.after (hostOps1 (F := Ideal)) W (Proc.devRef .tc main_v38)
    = mulf (Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 d)
          (Host.gather gather_S100000x64_S1600000x1_S1600000x64_1_0_n_n_0_1_164 h
            (broadcastInDim S1600000x1 ![0] bcast_S1600000_S1600000x1_0
              (select (cmpi .slt s (broadcastInDim S1600000 ![] bcast_S_S1600000 (constantI S_ 32 0#32)))
                (addi s (broadcastInDim S1600000 ![] bcast_S_S1600000 (constantI S_ 32 100000#32))) s))))
        (broadcastInDim S100000x64 ![0, 1] bcast_S100000x1_S100000x64_0_1 col) := by
  subst h11 hs hd hh
  dsimp only [hostOps1]
  after_results
  try rfl

end Stretches

/-! ## Before region 0 -/

set_option maxHeartbeats 400000 in
/-- The in-degree, after the first stretch. -/
theorem W1_v7 (c : Dev nD) : W1 m ρ c (Proc.devRef .tc main_v7) = deg (m ((c : Thread nD τ).loc main_arg1)) := by
  dsimp only [W1, hostOps0]
  after_results
  unfold deg dstCol dstRow
  rfl

set_option maxHeartbeats 400000 in
theorem W1_cst1 (c : Dev nD) : W1 m ρ c (Proc.devRef .tc main_cst_1) = constant (F := Ideal) S_ .f32 0x3F800000#32 := by
  dsimp only [W1, hostOps0]
  after_results

/-- The clamped in-degree, after the clamp. -/
theorem W2_v8 (c : Dev nD) : W2 m ρ c (Proc.devRef .tc main_v8) = clipDeg (m ((c : Thread nD τ).loc main_arg1)) := by
  refine (clip_stage (W1 m ρ c) _ _ rfl rfl).trans ?_
  rw [W1_cst1, W1_v7]
  rfl

set_option maxHeartbeats 400000 in
theorem W2_v1 (c : Dev nD) : W2 m ρ c (Proc.devRef .tc main_v1) = srcRow (m ((c : Thread nD τ).loc main_arg1)) := by
  dsimp only [W2, W1, hostOps0, hostOps0_1]
  after_results
  unfold srcRow
  rfl

set_option maxHeartbeats 400000 in
theorem W2_v3 (c : Dev nD) : W2 m ρ c (Proc.devRef .tc main_v3) = dstRow (m ((c : Thread nD τ).loc main_arg1)) := by
  dsimp only [W2, W1, hostOps0, hostOps0_1]
  after_results
  unfold dstRow
  rfl

set_option maxHeartbeats 400000 in
theorem W2_arg0 (c : Dev nD) : W2 m ρ c (Proc.devRef .tc main_arg0) = m ((c : Thread nD τ).loc main_arg0) := by
  dsimp only [W2, W1, hostOps0, hostOps0_1]
  after_results
  try rfl

set_option maxHeartbeats 400000 in
/-- The source indices, as the host leaves them. -/
theorem W3_v1 (c : Dev nD) : W3 m ρ c (Proc.devRef .tc main_v1) = srcRow (m ((c : Thread nD τ).loc main_arg1)) := by
  dsimp only [W3, W2, W1, hostOps0, hostOps0_1, hostOps0_2]
  after_results
  unfold srcRow
  rfl

set_option maxHeartbeats 400000 in
/-- The destination indices. -/
theorem W3_v3 (c : Dev nD) : W3 m ρ c (Proc.devRef .tc main_v3) = dstRow (m ((c : Thread nD τ).loc main_arg1)) := by
  dsimp only [W3, W2, W1, hostOps0, hostOps0_1, hostOps0_2]
  after_results
  unfold dstRow
  rfl

/-- The column of reciprocals of the clamped in-degree. -/
theorem W3_v11 (c : Dev nD) : W3 m ρ c (Proc.devRef .tc main_v11) = invCol (m ((c : Thread nD τ).loc main_arg1)) := by
  refine (recip_stage (W2 m ρ c) _ rfl).trans ?_
  rw [W2_v8]
  rfl

/-- Layer one's neighbour means. -/
theorem W3_v23 (c : Dev nD) : W3 m ρ c (Proc.devRef .tc main_v23)
    = mean128 (m ((c : Thread nD τ).loc main_arg0)) (m ((c : Thread nD τ).loc main_arg1)) := by
  refine (mean_stage (W2 m ρ c) _ _ _ _ rfl rfl rfl rfl).trans ?_
  rw [W2_v8, W2_v1, W2_v3, W2_arg0]
  rfl

set_option maxHeartbeats 400000 in
theorem W3_v24 (c : Dev nD) : W3 m ρ c (Proc.devRef .tc main_v24) = tr1 (m ((c : Thread nD τ).loc main_arg2)) := by
  dsimp only [W3, W2, W1, hostOps0, hostOps0_1, hostOps0_2]
  after_results
  try rfl

set_option maxHeartbeats 400000 in
theorem W3_v25 (c : Dev nD) : W3 m ρ c (Proc.devRef .tc main_v25) = tr1 (m ((c : Thread nD τ).loc main_arg4)) := by
  dsimp only [W3, W2, W1, hostOps0, hostOps0_1, hostOps0_2]
  after_results
  try rfl

set_option maxHeartbeats 400000 in
theorem W3_arg0 (c : Dev nD) : W3 m ρ c (Proc.devRef .tc main_arg0) = m ((c : Thread nD τ).loc main_arg0) := by
  dsimp only [W3, W2, W1, hostOps0, hostOps0_1, hostOps0_2]
  after_results
  try rfl

set_option maxHeartbeats 400000 in
theorem W3_arg3 (c : Dev nD) : W3 m ρ c (Proc.devRef .tc main_arg3) = m ((c : Thread nD τ).loc main_arg3) := by
  dsimp only [W3, W2, W1, hostOps0, hostOps0_1, hostOps0_2]
  after_results
  try rfl

set_option maxHeartbeats 400000 in
theorem W3_arg5 (c : Dev nD) : W3 m ρ c (Proc.devRef .tc main_arg5) = m ((c : Thread nD τ).loc main_arg5) := by
  dsimp only [W3, W2, W1, hostOps0, hostOps0_1, hostOps0_2]
  after_results
  try rfl

set_option maxHeartbeats 400000 in
theorem W3_arg6 (c : Dev nD) : W3 m ρ c (Proc.devRef .tc main_arg6) = m ((c : Thread nD τ).loc main_arg6) := by
  dsimp only [W3, W2, W1, hostOps0, hostOps0_1, hostOps0_2]
  after_results
  try rfl

set_option maxHeartbeats 400000 in
theorem W3_arg7 (c : Dev nD) : W3 m ρ c (Proc.devRef .tc main_arg7) = m ((c : Thread nD τ).loc main_arg7) := by
  dsimp only [W3, W2, W1, hostOps0, hostOps0_1, hostOps0_2]
  after_results
  try rfl

/-! ## After region 0 -/

/-- Region 0's output array: layer one's output. -/
theorem W4_v26 (c : Dev nD) : W4 m ρ c (Proc.devRef .tc main_v26)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  refine (W4_arr m ρ c 5).trans ?_
  rw [Cert.KernelIdeal.Region0.final0 (V3 m ρ) c]
  show LibGraphConv.layer true (W3 m ρ c (Proc.devRef .tc main_v23)) (W3 m ρ c (Proc.devRef .tc main_arg0))
      (W3 m ρ c (Proc.devRef .tc main_v24)) (W3 m ρ c (Proc.devRef .tc main_arg3)) (W3 m ρ c (Proc.devRef .tc main_v25)) = _
  rw [W3_v23, W3_arg0, W3_v24, W3_arg3, W3_v25]
  rfl

theorem W4_v1 (c : Dev nD) : W4 m ρ c (Proc.devRef .tc main_v1) = srcRow (m ((c : Thread nD τ).loc main_arg1)) :=
  (W4_of_ne m ρ c main_v1 (by decide)).trans (W3_v1 m ρ c)
theorem W4_v3 (c : Dev nD) : W4 m ρ c (Proc.devRef .tc main_v3) = dstRow (m ((c : Thread nD τ).loc main_arg1)) :=
  (W4_of_ne m ρ c main_v3 (by decide)).trans (W3_v3 m ρ c)
theorem W4_v11 (c : Dev nD) : W4 m ρ c (Proc.devRef .tc main_v11) = invCol (m ((c : Thread nD τ).loc main_arg1)) :=
  (W4_of_ne m ρ c main_v11 (by decide)).trans (W3_v11 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

/-! ## Before region 1 -/

/-- Layer two's neighbour means, of layer one's output. -/
theorem W5_v38 (c : Dev nD) : W5 m ρ c (Proc.devRef .tc main_v38)
    = mean64 (hidden (m ((c : Thread nD τ).loc main_arg0)) (m ((c : Thread nD τ).loc main_arg1)) (m ((c : Thread nD τ).loc main_arg2))
        (m ((c : Thread nD τ).loc main_arg3)) (m ((c : Thread nD τ).loc main_arg4))) (m ((c : Thread nD τ).loc main_arg1)) := by
  refine (mean2_stage (W4 m ρ c) _ _ _ _ rfl rfl rfl rfl).trans ?_
  rw [W4_v11, W4_v1, W4_v3, W4_v26]
  rfl

theorem W5_v26 (c : Dev nD) : W5 m ρ c (Proc.devRef .tc main_v26)
    = hidden (m ((c : Thread nD τ).loc main_arg0)) (m ((c : Thread nD τ).loc main_arg1)) (m ((c : Thread nD τ).loc main_arg2))
        (m ((c : Thread nD τ).loc main_arg3)) (m ((c : Thread nD τ).loc main_arg4)) := by
  dsimp only [W5, hostOps1]
  after_results
  exact W4_v26 m ρ c

theorem W5_v39 (c : Dev nD) : W5 m ρ c (Proc.devRef .tc main_v39) = tr2 (m ((c : Thread nD τ).loc main_arg5)) := by
  dsimp only [W5, hostOps1]
  after_results
  rw [W4_arg5]
  rfl

theorem W5_v40 (c : Dev nD) : W5 m ρ c (Proc.devRef .tc main_v40) = tr2 (m ((c : Thread nD τ).loc main_arg7)) := by
  dsimp only [W5, hostOps1]
  after_results
  rw [W4_arg7]
  rfl

theorem W5_arg6 (c : Dev nD) : W5 m ρ c (Proc.devRef .tc main_arg6) = m ((c : Thread nD τ).loc main_arg6) := by
  dsimp only [W5, hostOps1]
  after_results
  exact W4_arg6 m ρ c

/-! ## After region 1: the result -/

/-- The result buffer after the run: the softmax of layer two. -/
theorem W6_v41 (c : Dev nD) : W6 m ρ c (Proc.devRef .tc main_v41)
    = Cert.Softmax.softmax (logits (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))) := by
  refine (W6_arr m ρ c 5).trans ?_
  rw [Cert.KernelIdeal.Region1.final1 (V5 m ρ) c]
  show Cert.Softmax.softmax (LibGraphConv.layer false (W5 m ρ c (Proc.devRef .tc main_v38)) (W5 m ρ c (Proc.devRef .tc main_v26))
      (W5 m ρ c (Proc.devRef .tc main_v39)) (W5 m ρ c (Proc.devRef .tc main_arg6)) (W5 m ρ c (Proc.devRef .tc main_v40))) = _
  rw [W5_v38, W5_v26, W5_v39, W5_arg6, W5_v40]
  rfl

/-- The kernel program's run with its result at the network of the arguments. -/
theorem run : θ_run defs (onTc (τ := τ) (main (F := Ideal))) ⟨m, fun _ => 0, ρ⟩ (fun r => ∀ c : Dev nD,
      r.2.mem ((c.tc : Thread nD τ).loc main_v41)
        = Cert.Softmax.softmax (logits (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W6_v41 m ρ c), (h c).2⟩) (Cert.KernelIdeal.Run.run m ρ)

end Cert.KernelIdeal.Val

end
-- ==== Proof.RefValue.lean ====
/-
  The reference program's result as the same network of its arguments.

  The reference spells every stage as a host operation over whole arrays. Its index tables, degree count and neighbour
  sums are the kernel program's own operations on the same edge list. It DIVIDES the sums by the clamped degree copied
  along each row where the kernel program multiplies by the reciprocal column: the clamped degree max(1, d) is at
  least one, never zero, and off zero the quotient x / y on the extended reals is x · y⁻¹ while 1 / y is y⁻¹, so the
  two means are one array. Its layers are the product with the transposed weights, the bias copied down the rows and
  the second product, added in the order ((A·W + b) + X·W'): the layer function of the arrays; layer one is then
  clamped below at zero, layer two goes through the softmax along each row.
-/
import proofs.«137805_j36344013259391_1_alg».proof.Proof.Gen.ReferenceIdeal.Read
import proofs.«137805_j36344013259391_1_alg».proof.Proof.Chain
import proofs.«137805_j36344013259391_1_alg».proof.Proof.Softmax
import Idealize.ShloMosaic.Lib.ValueIdx
import Idealize.ShloMosaic.Lib.Pipeline.Value

set_option maxRecDepth 16384

noncomputable section

namespace Cert.RefValue

open Idealize.ShloMosaic Idealize.ShloMosaic.ValueIdx Idealize.SL.Sem Cert.Chain

/-- Sums times the column of reciprocals 1 / max(1, d), copied along each row, are the sums divided by max(1, d) copied
    along each row: the divisor is at least one. -/
theorem mean_mul_eq_div {n K : ℕ} (S : FVec Ideal ⟨2, ![n, K]⟩ .f32) (d : FVec Ideal ⟨1, ![n]⟩ .f32)
    (h0 : (⟨0, ![]⟩ : Shape).BroadcastsInDim ⟨1, ![n]⟩ ![])
    (h1 : (⟨1, ![n]⟩ : Shape).BroadcastsInDim ⟨2, ![n, 1]⟩ ![0])
    (h2 : (⟨2, ![n, 1]⟩ : Shape).BroadcastsInDim ⟨2, ![n, K]⟩ ![0, 1]) :
    mulf S (broadcastInDim ⟨2, ![n, K]⟩ ![0, 1] h2 (broadcastInDim ⟨2, ![n, 1]⟩ ![0] h1
      (Host.divf (broadcastInDim ⟨1, ![n]⟩ ![] h0 (constant (F := Ideal) (⟨0, ![]⟩ : Shape) .f32 0x3F800000#32))
        (maximumf (broadcastInDim ⟨1, ![n]⟩ ![] h0 (id (constant (F := Ideal) (⟨0, ![]⟩ : Shape) .f32 0x3F800000#32))) d))))
    = Host.divf S (broadcastInDim ⟨2, ![n, K]⟩ ![0, 1] h2 (broadcastInDim ⟨2, ![n, 1]⟩ ![0] h1
        (maximumf (broadcastInDim ⟨1, ![n]⟩ ![] h0 (id (constant (F := Ideal) (⟨0, ![]⟩ : Shape) .f32 0x3F800000#32))) d))) := by
  funext i
  obtain ⟨p, q, rfl⟩ : ∃ (p : Fin n) (q : Fin K), i = ix2 p q := ⟨i 0, i 1, eq_ix2 i⟩
  have hone : ∀ u : FVec Ideal (⟨0, ![]⟩ : Shape) .f32, u = constant (F := Ideal) (⟨0, ![]⟩ : Shape) .f32 0x3F800000#32 →
      broadcastInDim ⟨1, ![n]⟩ ![] h0 u (ix1 p) = 1 := by
    intro u hu
    rw [broadcastInDim_apply ![] h0 _ (ix1 p) ix0 (fun ax => ax.elim0), hu, constant_apply, Ideal.ofBits_one_f32]
  rw [mulf_apply, LibGraphConv.column_apply]
  show S (ix2 p q) * Ideal.div _ _ = Ideal.div (S (ix2 p q)) _
  rw [LibGraphConv.column_apply, maximumf_apply, hone _ rfl,
    hone (id (constant (F := Ideal) (⟨0, ![]⟩ : Shape) .f32 0x3F800000#32)) rfl]
  exact LibGraphConv.mul_recip_eq_div _ _ (lt_of_lt_of_le zero_lt_one (le_max_left _ _)).ne'

section Stages

variable (x0 : FVec Ideal Cert.KernelIdeal.S100000x128 .f32) (x1 : IVec Cert.KernelIdeal.S2x1600000 32)
  (x2 : FVec Ideal Cert.KernelIdeal.S64x128 .f32) (x3 : FVec Ideal Cert.KernelIdeal.S64 .f32)
  (x4 : FVec Ideal Cert.KernelIdeal.S64x128 .f32) (x5 : FVec Ideal Cert.KernelIdeal.S40x64 .f32)
  (x6 : FVec Ideal Cert.KernelIdeal.S40 .f32) (x7 : FVec Ideal Cert.KernelIdeal.S40x64 .f32)

/-- Layer one's neighbour sums are the same gather and scatter-add. -/
theorem sums1 : Cert.ReferenceIdeal.Read.val_main_v13 (F := Ideal) x0 x1 = agg128 x0 x1 := rfl

/-- The clamped in-degree is the same count and clamp. -/
theorem clip1 : Cert.ReferenceIdeal.Read.val_main_v18 (F := Ideal) x1 = clipDeg x1 := rfl

/-- Layer one's neighbour means: divided by the clamped degree, or times its reciprocal. -/
theorem mean1 : Cert.ReferenceIdeal.Read.val_main_v21 (F := Ideal) x0 x1 = mean128 x0 x1 := by
  unfold Cert.ReferenceIdeal.Read.val_main_v21 Cert.ReferenceIdeal.Read.val_main_v20 Cert.ReferenceIdeal.Read.val_main_v19
  rw [sums1, clip1]
  exact (mean_mul_eq_div (agg128 x0 x1) (deg x1) _ _ _).symm

/-- Layer one. -/
theorem layer1 : Cert.ReferenceIdeal.Read.val_main_v30 (F := Ideal) x0 x1 x2 x3 x4 = hidden x0 x1 x2 x3 x4 := by
  unfold Cert.ReferenceIdeal.Read.val_main_v30 Cert.ReferenceIdeal.Read.val_main_v29 Cert.ReferenceIdeal.Read.val_main_v26 Cert.ReferenceIdeal.Read.val_main_v28 Cert.ReferenceIdeal.Read.val_main_v23 Cert.ReferenceIdeal.Read.val_main_v25
    Cert.ReferenceIdeal.Read.val_main_v24 Cert.ReferenceIdeal.Read.val_main_call1_v0 Cert.ReferenceIdeal.Read.val_main_call1_cst
  rw [mean1]
  exact LibGraphConv.host_layer_relu_eq (mean128 x0 x1) x0 (tr1 x2) (tr1 x4) x3 _ _ _

/-- Layer two's neighbour sums, of layer one's output. -/
theorem sums2 : Cert.ReferenceIdeal.Read.val_main_v44 (F := Ideal) x0 x1 x2 x3 x4 = agg64 (hidden x0 x1 x2 x3 x4) x1 := by
  unfold Cert.ReferenceIdeal.Read.val_main_v44 Cert.ReferenceIdeal.Read.val_main_v41
  rw [layer1]
  rfl

theorem clip2 : Cert.ReferenceIdeal.Read.val_main_v49 (F := Ideal) x1 = clipDeg x1 := rfl

/-- Layer two's neighbour means. -/
theorem mean2 : Cert.ReferenceIdeal.Read.val_main_v52 (F := Ideal) x0 x1 x2 x3 x4 = mean64 (hidden x0 x1 x2 x3 x4) x1 := by
  unfold Cert.ReferenceIdeal.Read.val_main_v52 Cert.ReferenceIdeal.Read.val_main_v51 Cert.ReferenceIdeal.Read.val_main_v50
  rw [sums2, clip2]
  exact (mean_mul_eq_div (agg64 (hidden x0 x1 x2 x3 x4) x1) (deg x1) _ _ _).symm

/-- Layer two before its softmax. -/
theorem layer2 : Cert.ReferenceIdeal.Read.val_main_v60 (F := Ideal) x0 x1 x2 x3 x4 x5 x6 x7 = logits x0 x1 x2 x3 x4 x5 x6 x7 := by
  unfold Cert.ReferenceIdeal.Read.val_main_v60 Cert.ReferenceIdeal.Read.val_main_v57 Cert.ReferenceIdeal.Read.val_main_v59 Cert.ReferenceIdeal.Read.val_main_v54 Cert.ReferenceIdeal.Read.val_main_v56 Cert.ReferenceIdeal.Read.val_main_v55
  rw [mean2, layer1]
  exact LibGraphConv.host_layer_eq (mean64 (hidden x0 x1 x2 x3 x4) x1) (hidden x0 x1 x2 x3 x4) (tr2 x5) (tr2 x7) x6 _ _

/-- The reference's result: the softmax of layer two. -/
theorem result : Cert.ReferenceIdeal.Read.val_main_v71 (F := Ideal) x0 x1 x2 x3 x4 x5 x6 x7
    = Cert.Softmax.softmax (logits x0 x1 x2 x3 x4 x5 x6 x7) := by
  unfold Cert.ReferenceIdeal.Read.val_main_v71 Cert.ReferenceIdeal.Read.val_main_v70 Cert.ReferenceIdeal.Read.val_main_v69 Cert.ReferenceIdeal.Read.val_main_v68 Cert.ReferenceIdeal.Read.val_main_v67 Cert.ReferenceIdeal.Read.val_main_v66
    Cert.ReferenceIdeal.Read.val_main_v65 Cert.ReferenceIdeal.Read.val_main_v64 Cert.ReferenceIdeal.Read.val_main_v63 Cert.ReferenceIdeal.Read.val_main_v62 Cert.ReferenceIdeal.Read.val_main_v61 Cert.ReferenceIdeal.Read.val_main_cst_10
    Cert.ReferenceIdeal.Read.val_main_cst_11 Cert.ReferenceIdeal.Read.val_main_cst_12
  rw [layer2]
  exact Cert.Softmax.host_softmax_eq (logits x0 x1 x2 x3 x4 x5 x6 x7) _ (by decide) _ _ _ _

end Stages

/-- The reference's run with its result at the network of the arguments. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v71)
          = Cert.Softmax.softmax (logits (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
              (m ((c.tc : Thread Cert.ReferenceIdeal.nD Cert.ReferenceIdeal.τ).loc Cert.ReferenceIdeal.main_arg4))
              (m ((c.tc : Thread Cert.ReferenceIdeal.nD Cert.ReferenceIdeal.τ).loc Cert.ReferenceIdeal.main_arg5))
              (m ((c.tc : Thread Cert.ReferenceIdeal.nD Cert.ReferenceIdeal.τ).loc Cert.ReferenceIdeal.main_arg6))
              (m ((c.tc : Thread Cert.ReferenceIdeal.nD Cert.ReferenceIdeal.τ).loc Cert.ReferenceIdeal.main_arg7)))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)) :=
  (θ_run (Cert.ReferenceIdeal.defs (F := Ideal)) _ _).mono
    (fun _ h c => ⟨((h c).1.trans (Cert.ReferenceIdeal.Read.val_main_v71_eq m c)).trans (result _ _ _ _ _ _ _ _), (h c).2⟩)
    (Cert.ReferenceIdeal.Value.run (F := Ideal) m ρ)

end Cert.RefValue

end
-- ==== Proof.lean ====
/-
  The certificate of a two-layer mean-aggregating graph convolution with a softmax head: the kernel program against its
  plain reference, on the extended reals.

  Both programs compute ONE function of the eight arguments (the module that names it calls its last stage `logits`,
  followed by a softmax along each row): the edge list gives source and destination index tables and the in-degree of
  every node; a layer's neighbour sums gather the source rows and scatter-add them at the destinations; the neighbour
  mean is the sums over the degree clamped below at one; a layer is mean · Wlᵀ + bl + x · Wrᵀ, rectified in layer one,
  sent through a softmax along each row in layer two.
  * The kernel program computes the two layers in row tiles of 5000 nodes (each tile reads only its own rows of the
    mean and of the features, and the whole weights), on operands cut to bfloat16 — the identity on the extended reals
    — and multiplies the sums by the reciprocal of the clamped degree. Its result buffer after the run is read off the
    frame of its two regions: each region's output array is the layer as one whole-array function of the region's
    input arrays, and the host operations between the regions are the reference's own.
  * The reference divides the sums by the clamped degree. That divisor is at least one, so it is never zero, and off
    zero x · (1 / y) = x / y on the extended reals: the only law the two sides need beyond commutativity and
    associativity of addition (the order of the additions inside a layer). No finiteness of the inputs is used.
  The three frames: the kernel programs' are the generated frames of their two regions; the reference's is its run with
  the result dropped. The idealization rewrote no operation, so `preserves` asks nothing.
-/
import proofs.«137805_j36344013259391_1_alg».proof.Defs
import proofs.«137805_j36344013259391_1_alg».proof.Proof.Gen.Kernel
import proofs.«137805_j36344013259391_1_alg».proof.Proof.Gen.Kernel.Skeleton
import proofs.«137805_j36344013259391_1_alg».proof.Proof.Gen.Kernel.Launch
import proofs.«137805_j36344013259391_1_alg».proof.Proof.Gen.Kernel.Points
import proofs.«137805_j36344013259391_1_alg».proof.Proof.Gen.Kernel.Frame
import proofs.«137805_j36344013259391_1_alg».proof.Proof.Gen.KernelIdeal
import proofs.«137805_j36344013259391_1_alg».proof.Proof.Gen.KernelIdeal.Skeleton
import proofs.«137805_j36344013259391_1_alg».proof.Proof.Gen.KernelIdeal.Launch
import proofs.«137805_j36344013259391_1_alg».proof.Proof.Gen.KernelIdeal.Points
import proofs.«137805_j36344013259391_1_alg».proof.Proof.Gen.KernelIdeal.Frame
import proofs.«137805_j36344013259391_1_alg».proof.Proof.Gen.ReferenceIdeal
import proofs.«137805_j36344013259391_1_alg».proof.Proof.Gen.Pre_finite_inputs
import proofs.«137805_j36344013259391_1_alg».proof.Proof.Gen.ReferenceIdeal.Run
import proofs.«137805_j36344013259391_1_alg».proof.Proof.Gen.ReferenceIdeal.Read
import proofs.«137805_j36344013259391_1_alg».proof.Proof.KernelValue
import proofs.«137805_j36344013259391_1_alg».proof.Proof.RefValue
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  fun m ρ m' ρ' _ hagree =>
    ⟨fun c => Cert.Softmax.softmax (Cert.Chain.logits (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))),
     Cert.KernelIdeal.Val.run m ρ,
     (θ_run Cert.ReferenceIdeal.defs _ _).mono (fun _ h c => ⟨(h c).1.trans (by
        rw [(hagree c).1, (hagree c).2.1, (hagree c).2.2.1, (hagree c).2.2.2.1, (hagree c).2.2.2.2.1,
          (hagree c).2.2.2.2.2.1, (hagree c).2.2.2.2.2.2.1, (hagree c).2.2.2.2.2.2.2]), (h c).2⟩)
       (Cert.RefValue.run m' ρ')⟩⟩

end Cert.Proof

end
